-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S2000000 : Shape := ⟨1, ![2000000]⟩
abbrev S32x64 : Shape := ⟨2, ![32, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg1 : IVec S2000000 32) (main_v13 : IVec S_ 1) (main_v15 : IVec S2000000 1) (main_c_5 : IVec S_ 32) : IVec S_ 1 :=
  let main_v16 : IVec S2000000 32 := broadcastInDim S2000000 ![] bcast_S_S2000000 main_c_5
  let main_v17 : IVec S2000000 1 := cmpi .slt main_arg1 main_v16
  let main_v18 : IVec S2000000 1 := andi main_v15 main_v17
  let main_c_6 : IVec S_ 1 := constantI S_ 1 1#1
  let main_v19 : IVec S_ 1 := (fun x v => Host.reduce IntOp.andi x v reducesTo_S2000000_S_d0 h_S_) main_v18 main_c_6
  let main_v20 : IVec S_ 1 := andi main_v13 main_v19
  main_v20

def fn {F : FTy → Type} [FloatOps F] (main_arg0 : FVec F S2000000x64 .f32) (main_arg1 : IVec S2000000 32) (main_arg2 : FVec F S32x64 .f32) (main_arg3 : FVec F S32x64 .f32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg1 main_v14
  let main_c_5 : IVec S_ 32 := constantI S_ 32 32#32
  fn_part1 (F := F) main_arg1 main_v13 main_v15 main_c_5
-- ==== Kernel.lean ====
abbrev S2000000x64 : Shape := ⟨2, ![2000000, 64]⟩
abbrev S2000000 : Shape := ⟨1, ![2000000]⟩
abbrev S32x64 : Shape := ⟨2, ![32, 64]⟩
abbrev S2000000x1 : Shape := ⟨2, ![2000000, 1]⟩
abbrev S2x32x64 : Shape := ⟨3, ![2, 32, 64]⟩
abbrev S2x1x32 : Shape := ⟨3, ![2, 1, 32]⟩
abbrev S25000x64 : Shape := ⟨2, ![25000, 64]⟩
abbrev S25000x1 : Shape := ⟨2, ![25000, 1]⟩
abbrev S1x32x64 : Shape := ⟨3, ![1, 32, 64]⟩
abbrev S1x1x32 : Shape := ⟨3, ![1, 1, 32]⟩
abbrev S25000x32 : Shape := ⟨2, ![25000, 32]⟩
abbrev S32 : Shape := ⟨1, ![32]⟩
abbrev S1x32 : Shape := ⟨2, ![1, 32]⟩
abbrev S_ : Shape := ⟨0, ![]⟩
abbrev S32x1 : Shape := ⟨2, ![32, 1]⟩
abbrev S16000x64 : Shape := ⟨2, ![16000, 64]⟩
abbrev S16000x1 : Shape := ⟨2, ![16000, 1]⟩
abbrev S16000x32 : Shape := ⟨2, ![16000, 32]⟩

abbrev nBuf : Space → Nat
  | .hbm => 44
  | .vmem => 20
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S32x64, .f32⟩
  | .hbm, ⟨3, _⟩ => ⟨S32x64, .f32⟩
  | .hbm, ⟨4, _⟩ => ⟨S2000000x1, .i32⟩
  | .hbm, ⟨5, _⟩ => ⟨S2x32x64, .f32⟩
  | .hbm, ⟨6, _⟩ => ⟨S2x32x64, .f32⟩
  | .hbm, ⟨7, _⟩ => ⟨S2x1x32, .f32⟩
  | .hbm, ⟨8, _⟩ => ⟨S_, .f32⟩
  | .hbm, ⟨9, _⟩ => ⟨S32x64, .f32⟩
  | .hbm, ⟨10, _⟩ => ⟨S_, .f32⟩
  | .hbm, ⟨11, _⟩ => ⟨S32x64, .f32⟩
  | .hbm, ⟨12, _⟩ => ⟨S_, .f32⟩
  | .hbm, ⟨13, _⟩ => ⟨S1x32, .f32⟩
  | .hbm, ⟨14, _⟩ => ⟨S32x1, .f32⟩
  | .hbm, ⟨15, _⟩ => ⟨S_, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .bf16⟩
  | .hbm, ⟨36, _⟩ => ⟨S32x64, .f32⟩
  | .hbm, ⟨37, _⟩ => ⟨S32x64, .f32⟩
  | .hbm, ⟨38, _⟩ => ⟨S32x64, .bf16⟩
  | .hbm, ⟨39, _⟩ => ⟨S32x64, .bf16⟩
  | .hbm, ⟨40, _⟩ => ⟨S32x64, .f32⟩
  | .hbm, ⟨41, _⟩ => ⟨S32x64, .f32⟩
  | .hbm, ⟨42, _⟩ => ⟨S32x64, .bf16⟩
  | .hbm, ⟨43, _⟩ => ⟨S2000000x64, .f32⟩
  | .local _ .vmem, ⟨0, _⟩ => ⟨S25000x64, .f32⟩
  | .local _ .vmem, ⟨1, _⟩ => ⟨S25000x64, .f32⟩
  | .local _ .vmem, ⟨2, _⟩ => ⟨S25000x1, .i32⟩
  | .local _ .vmem, ⟨3, _⟩ => ⟨S25000x1, .i32⟩
  | .local _ .vmem, ⟨4, _⟩ => ⟨S1x32x64, .f32⟩
  | .local _ .vmem, ⟨5, _⟩ => ⟨S1x32x64, .f32⟩
  | .local _ .vmem, ⟨6, _⟩ => ⟨S1x32x64, .f32⟩
  | .local _ .vmem, ⟨7, _⟩ => ⟨S1x32x64, .f32⟩
  | .local _ .vmem, ⟨8, _⟩ => ⟨S1x1x32, .f32⟩
  | .local _ .vmem, ⟨9, _⟩ => ⟨S1x1x32, .f32⟩
  | .local _ .vmem, ⟨10, _⟩ => ⟨S16000x64, .f32⟩
  | .local _ .vmem, ⟨11, _⟩ => ⟨S16000x64, .f32⟩
  | .local _ .vmem, ⟨12, _⟩ => ⟨S16000x1, .i32⟩
  | .local _ .vmem, ⟨13, _⟩ => ⟨S16000x1, .i32⟩
  | .local _ .vmem, ⟨14, _⟩ => ⟨S32x64, .bf16⟩
  | .local _ .vmem, ⟨15, _⟩ => ⟨S32x64, .bf16⟩
  | .local _ .vmem, ⟨16, _⟩ => ⟨S32x64, .bf16⟩
  | .local _ .vmem, ⟨17, _⟩ => ⟨S32x64, .bf16⟩
  | .local _ .vmem, ⟨18, _⟩ => ⟨S16000x64, .f32⟩
  | .local _ .vmem, ⟨19, _⟩ => ⟨S16000x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S2000000_S2000000x1 : S2000000.ShapeCasts S2000000x1
  inb_S1x32x64_S1x32x64_0_0_0 : ∀ a, (![0, 0, 0] : Fin 3 → Nat) a + S1x32x64.size a ≤ S1x32x64.size a
  h_S1x32x64 : 0 < S1x32x64.numel
  inb_S1x1x32_S1x1x32_0_0_0 : ∀ a, (![0, 0, 0] : Fin 3 → Nat) a + S1x1x32.size a ≤ S1x1x32.size a
  h_S1x1x32 : 0 < S1x1x32.numel
  inb_S25000x64_S25000x64_0_0 : ∀ a, (![0, 0] : Fin 2 → Nat) a + S25000x64.size a ≤ S25000x64.size a
  h_S25000x64 : 0 < S25000x64.numel
  inb_S25000x1_S25000x1_0_0 : ∀ a, (![0, 0] : Fin 2 → Nat) a + S25000x1.size a ≤ S25000x1.size a
  h_S25000x1 : 0 < S25000x1.numel
  shapeCasts_S25000x1_S25000x1 : S25000x1.ShapeCasts S25000x1
  iota_S25000x32_d1_w32 : S25000x32.Iotas .tc 32 [1]
  broadcasts_S25000x1_S25000x32 : S25000x1.Broadcasts S25000x32
  natLt_1_32 : 1 < 32
  bitsLt_bf16_f32 : FTy.bits .bf16 < FTy.bits .f32
  reduces_S25000x32_S32 : S25000x32.Reduces [0] S32
  shapeCasts_S32_S1x32 : S32.ShapeCasts S1x32
  shapeCasts_S1x32x64_S1x32x64 : S1x32x64.ShapeCasts S1x32x64
  shapeCasts_S32x64_S1x32x64 : S32x64.ShapeCasts S1x32x64
  shapeCasts_S1x1x32_S1x1x32 : S1x1x32.ShapeCasts S1x1x32
  shapeCasts_S1x32_S1x1x32 : S1x32.ShapeCasts S1x1x32
  reducesTo_S2x32x64_S32x64_d0 : S2x32x64.ReducesTo [0] S32x64
  h_S_ : 0 < S_.numel
  reducesTo_S2x1x32_S1x32_d0 : S2x1x32.ReducesTo [0] S1x32
  shapeCasts_S1x32_S32x1 : S1x32.ShapeCasts S32x1
  bcast_S_S32x1 : S_.BroadcastsInDim S32x1 (![] : Fin 0 → Fin S32x1.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  inb_S16000x64_S16000x64_0_0 : ∀ a, (![0, 0] : Fin 2 → Nat) a + S16000x64.size a ≤ S16000x64.size a
  h_S16000x64 : 0 < S16000x64.numel
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  iota_S16000x32_d1_w32 : S16000x32.Iotas .tc 32 [1]
  broadcasts_S16000x1_S16000x32 : S16000x1.Broadcasts S16000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  dot_S25000x32_S25000x64_S32x64_0_0_1_1_n_n_wf : DotDims.WF S25000x32 S25000x64 S32x64 [0] [0] [1] [1] [] []
  dot_S16000x32_S32x64_S16000x64_1_0_0_1_n_n_wf : DotDims.WF S16000x32 S32x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S2000000x64.size a
  hwx0_0 : ∀ i : grid0.Coords, EltTy.bits .f32 = 32 ∨ (Rect.block (s := S2000000x64) S25000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25000x1.size a ≤ S2000000x1.size a
  hwx0_1 : ∀ i : grid0.Coords, EltTy.bits .i32 = 32 ∨ (Rect.block (s := S2000000x1) S25000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64.size a ≤ S2x32x64.size a
  hwx0_2 : ∀ i : grid0.Coords, EltTy.bits .f32 = 32 ∨ (Rect.block (s := S2x32x64) S1x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x64.size a ≤ S2x32x64.size a
  hwx0_3 : ∀ i : grid0.Coords, EltTy.bits .f32 = 32 ∨ (Rect.block (s := S2x32x64) S1x32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S2x1x32.size a
  hwx0_4 : ∀ i : grid0.Coords, EltTy.bits .f32 = 32 ∨ (Rect.block (s := S2x1x32) S1x1x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S2000000x64.size a
  hwx1_0 : ∀ i : grid1.Coords, EltTy.bits .f32 = 32 ∨ (Rect.block (s := S2000000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S2000000x1.size a
  hwx1_1 : ∀ i : grid1.Coords, EltTy.bits .i32 = 32 ∨ (Rect.block (s := S2000000x1) S16000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .bf16 = 32 ∨ (Rect.block (s := S32x64) S32x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .bf16 = 32 ∨ (Rect.block (s := S32x64) S32x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .bf16 = 32 ∨ (Rect.block (s := S32x64) S32x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .bf16 = 32 ∨ (Rect.block (s := S32x64) S32x64.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16000x64.size a ≤ S2000000x64.size a
  hwx1_6 : ∀ i : grid1.Coords, EltTy.bits .f32 = 32 ∨ (Rect.block (s := S2000000x64) S16000x64.size (cc1_transform_6 i) (hinb1_6 i)).WholeWords (EltTy.packing .f32)

variable [Facts₀]

def dot_S25000x32_S25000x64_S32x64_0_0_1_1_n_n : DotDims S25000x32 S25000x64 S32x64 where
  lhsContracting := [0]
  rhsContracting := [0]
  lhsNonContracting := [1]
  rhsNonContracting := [1]
  lhsBatch := []
  rhsBatch := []
  wf := dot_S25000x32_S25000x64_S32x64_0_0_1_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf

abbrev win0_0 : Pipeline.Window sig grid0 :=
  Pipeline.Window.ofSpec (Memref.whole main_arg0) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x32x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x32x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S16000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000000x64 : Shape := ⟨2, ![2000000, 64]⟩
abbrev S2000000 : Shape := ⟨1, ![2000000]⟩
abbrev S32x64 : Shape := ⟨2, ![32, 64]⟩
abbrev S_ : Shape := ⟨0, ![]⟩
abbrev S2000000x1 : Shape := ⟨2, ![2000000, 1]⟩
abbrev S32 : Shape := ⟨1, ![32]⟩
abbrev S32x1 : Shape := ⟨2, ![32, 1]⟩

abbrev nBuf : Space → Nat
  | .hbm => 72
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000, .i32⟩
  | .hbm, ⟨2, _⟩ => ⟨S32x64, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S2000000x1, .i32⟩
  | .hbm, ⟨7, _⟩ => ⟨S32x64, .f32⟩
  | .hbm, ⟨8, _⟩ => ⟨S_, .f32⟩
  | .hbm, ⟨9, _⟩ => ⟨S2000000, .f32⟩
  | .hbm, ⟨10, _⟩ => ⟨S_, .f32⟩
  | .hbm, ⟨11, _⟩ => ⟨S32, .f32⟩
  | .hbm, ⟨12, _⟩ => ⟨S2000000x1, .i32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S32x64, .f32⟩
  | .hbm, ⟨20, _⟩ => ⟨S32x64, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x64, .f32⟩
  | .hbm, ⟨30, _⟩ => ⟨S2000000x64, .f32⟩
  | .hbm, ⟨31, _⟩ => ⟨S2000000x64, .f32⟩
  | .hbm, ⟨32, _⟩ => ⟨S_, .f32⟩
  | .hbm, ⟨33, _⟩ => ⟨S32x64, .f32⟩
  | .hbm, ⟨34, _⟩ => ⟨S2000000x1, .i32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S_, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000x64, .f32⟩
  | .hbm, ⟨51, _⟩ => ⟨S2000000x64, .f32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S2000000x1, .i32⟩
  | .hbm, ⟨60, _⟩ => ⟨S2000000x64, .f32⟩
  | .hbm, ⟨61, _⟩ => ⟨S2000000x64, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x64, .f32⟩
  | .hbm, ⟨71, _⟩ => ⟨S2000000x64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  bcast_S_S32x64 : S_.BroadcastsInDim S32x64 (![] : Fin 0 → Fin S32x64.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  scatter_S32x64_S2000000x1_S2000000x64_1_0_0_1_wf : ScatterDims.WF S32x64 S2000000x1 S2000000x64 [1] [0] [0] 1
  scatter_S32_S2000000x1_S2000000_n_0_0_1_wf : ScatterDims.WF S32 S2000000x1 S2000000 [] [0] [0] 1
  gather_S32x64_S2000000x1_S2000000x64_1_0_n_n_0_1_164_wf : GatherDims.WF S32x64 S2000000x1 S2000000x64 [1] [0] [] [0] [] 1 ![1, 64]

variable [Facts₀]

def scatter_S32x64_S2000000x1_S2000000x64_1_0_0_1 : ScatterDims S32x64 S2000000x1 S2000000x64 where
  updateWindowDims := [1]
  insertedWindowDims := [0]
  scatterDimsToOperandDims := [0]
  indexVectorDim := 1
  wf := scatter_S32x64_S2000000x1_S2000000x64_1_0_0_1_wf
def scatter_S32_S2000000x1_S2000000_n_0_0_1 : ScatterDims S32 S2000000x1 S2000000 where
  updateWindowDims := []
  insertedWindowDims := [0]
  scatterDimsToOperandDims := [0]
  indexVectorDim := 1
  wf := scatter_S32_S2000000x1_S2000000_n_0_0_1_wf
def gather_S32x64_S2000000x1_S2000000x64_1_0_n_n_0_1_164 : GatherDims S32x64 S2000000x1 S2000000x64 where
  offsetDims := [1]
  collapsedSliceDims := [0]
  operandBatchingDims := []
  startIndicesBatchingDims := []
  startIndexMap := [0]
  indexVectorDim := 1
  sliceSizes := ![1, 64]
  wf := gather_S32x64_S2000000x1_S2000000x64_1_0_n_n_0_1_164_wf

class Facts : Prop extends Facts₀ where

variable [Facts]
-- ==== Proof.Spec.lean ====
/-
  The per-type normalisation both programs compute, as functions of the rows `x r c`, the rows' type words `t r`
  and the two tables `w k c`, `b k c`, over the extended reals.

  A row `r` belongs to type `k` when its type word is `k` (`oh`: the indicator, 1 or 0). Per type and column the
  programs form the count `n`, the sum `s` of the rows and either the sum `q` of their squares (the kernel) or the
  sum `d` of their squared deviations from the mean (the reference). The kernel normalises by the one-pass variance
  `max (q / n' - (s / n')²) 0`, with `n' = max 1 n`, folds the result into a scale and a shift per type and column,
  and selects them per row by a sum against the indicator, each table split into itself and its own residual
  `a - a`. The reference normalises by the two-pass variance `d / n'` and reads the per-type tables at the row's
  type, clamped into the table.
-/
import Idealize.ShloMosaic.PureOps.Ideal
import Idealize.ShloMosaic.PureOps.Ideal.Laws
import Idealize.ShloMosaic.Lib.ValueIdx

noncomputable section

namespace Cert.Spec

open Idealize.ShloMosaic

/-- The indicator of "the type word `v` names type `k`". -/
def oh (v : BitVec 32) (k : Fin 32) : EReal := if v = BitVec.ofNat 32 k.val then 1 else 0

/-- Row `q` of the `s`-th block of 25000 rows of half `κ` of the two million rows. -/
def row (κ : Fin 2) (s : Fin 40) (q : Fin 25000) : Fin 2000000 :=
  ⟨(κ.val * 40 + s.val) * 25000 + q.val, by have := κ.isLt; have := s.isLt; have := q.isLt; omega⟩

/-- Row `q` of the `p`-th block of 16000 rows. -/
def row16 (p : Fin 125) (q : Fin 16000) : Fin 2000000 :=
  ⟨p.val * 16000 + q.val, by have := p.isLt; have := q.isLt; omega⟩

/-- The float literals the two programs share: 1.0, 1e-5 (as f32) and 0.0. -/
def one : EReal := Ideal.ofBits .f32 0x3F800000#32
def eps : EReal := Ideal.ofBits .f32 0x3727C5AC#32
def zero : EReal := Ideal.ofBits .f32 0x00000000#32

/-- The count clipped below at one. -/
def cl (n : EReal) : EReal := max one n
/-- The mean of a type's rows from their sum and count. -/
def mean (s n : EReal) : EReal := Ideal.div s (cl n)
/-- The one-pass variance, clamped at zero. -/
def varK (s q n : EReal) : EReal := max (Ideal.div q (cl n) - mean s n * mean s n) zero
/-- The kernel's per-type scale and shift. -/
def scaleK (s q n w : EReal) : EReal := Ideal.rsqrt (varK s q n + eps) * w
def shiftK (s q n w b : EReal) : EReal := b - mean s n * scaleK s q n w

section
variable (x : Fin 2000000 → Fin 64 → EReal) (t : Fin 2000000 → BitVec 32) (w b : Fin 32 → Fin 64 → EReal)

/-! ### The kernel's side: sums per half, block by block -/

/-- The sum of half `κ`'s rows of type `k`, column `c`, block by block. -/
def hsum1 (κ : Fin 2) (k : Fin 32) (c : Fin 64) : EReal :=
  ∑ s : Fin 40, ∑ q : Fin 25000, oh (t (row κ s q)) k * x (row κ s q) c
/-- The same of the squares. -/
def hsum2 (κ : Fin 2) (k : Fin 32) (c : Fin 64) : EReal :=
  ∑ s : Fin 40, ∑ q : Fin 25000, oh (t (row κ s q)) k * (x (row κ s q) c * x (row κ s q) c)
/-- The number of half `κ`'s rows of type `k`. -/
def hcnt (κ : Fin 2) (k : Fin 32) : EReal :=
  ∑ s : Fin 40, ∑ q : Fin 25000, oh (t (row κ s q)) k

/-- The two halves added. -/
def ksum1 (k : Fin 32) (c : Fin 64) : EReal := ∑ κ : Fin 2, hsum1 x t κ k c
def ksum2 (k : Fin 32) (c : Fin 64) : EReal := ∑ κ : Fin 2, hsum2 x t κ k c
def kcnt (k : Fin 32) : EReal := ∑ κ : Fin 2, hcnt t κ k

/-- The kernel's scale and shift tables. -/
def kscale (k : Fin 32) (c : Fin 64) : EReal := scaleK (ksum1 x t k c) (ksum2 x t k c) (kcnt t k) (w k c)
def kshift (k : Fin 32) (c : Fin 64) : EReal := shiftK (ksum1 x t k c) (ksum2 x t k c) (kcnt t k) (w k c) (b k c)

/-- The selection of a table's row by a row's type word, as the sum against the indicator. -/
def sel (v : BitVec 32) (f : Fin 32 → EReal) : EReal := ∑ k : Fin 32, oh v k * f k

/-- What the kernel leaves at row `r`, column `c`. -/
def outK (r : Fin 2000000) (c : Fin 64) : EReal :=
  x r c * (sel (t r) (fun k => kscale x t w k c) + sel (t r) (fun k => kscale x t w k c - kscale x t w k c))
    + (sel (t r) (fun k => kshift x t w b k c) + sel (t r) (fun k => kshift x t w b k c - kshift x t w b k c))

/-! ### The reference's side: sums over all rows, tables read at the clamped type -/

/-- A negative type word is wrapped once by the table's length, as jnp's indexing does. -/
def wrap (v : BitVec 32) : BitVec 32 := if v.slt 0#32 then v + 32#32 else v
/-- The table row a gather reads for the type word `v`: the wrapped word, read signed and clamped into the table. -/
def gi (v : BitVec 32) : Fin 32 := ⟨min (wrap v).toInt.toNat 31, by omega⟩

def rsum1 (k : Fin 32) (c : Fin 64) : EReal := ∑ r : Fin 2000000, oh (t r) k * x r c
def rcnt (k : Fin 32) : EReal := ∑ r : Fin 2000000, oh (t r) k * one
def rmean (k : Fin 32) (c : Fin 64) : EReal := mean (rsum1 x t k c) (rcnt t k)
/-- A row's deviation from its type's mean. -/
def rdiff (r : Fin 2000000) (c : Fin 64) : EReal := x r c - rmean x t (gi (t r)) c
def rsumd (k : Fin 32) (c : Fin 64) : EReal := ∑ r : Fin 2000000, oh (t r) k * (rdiff x t r c * rdiff x t r c)
def ristd (k : Fin 32) (c : Fin 64) : EReal := Ideal.rsqrt (Ideal.div (rsumd x t k c) (cl (rcnt t k)) + eps)

/-- What the reference leaves at row `r`, column `c`. -/
def outR (r : Fin 2000000) (c : Fin 64) : EReal :=
  rdiff x t r c * ristd x t (gi (t r)) c * w (gi (t r)) c + b (gi (t r)) c

end

end Cert.Spec

end
-- ==== Proof.Region0.lean ====
/-
  The first region of the kernel's program: what its three result arrays hold when it ends. Each half `κ` of the
  grid walks forty blocks of 25000 rows; per block the body adds, into the half's own accumulator block, the
  product of the transposed indicator matrix with the rows (and with their squares), and the indicator's column
  sums. So entry (κ, k, c) ends at the sum over half κ's rows of type k of column c.
-/
import proofs.«405719_j88347477279067_2_alg».proof.Proof.Gen.KernelIdeal.Frame
import proofs.«405719_j88347477279067_2_alg».proof.Proof.Spec
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable (V : (c : Dev nD) → (b : Ref sig .tc) → Buf (Elt Ideal) ((c : Thread nD τ).loc b))

/-- The rows and their type words as the region finds them. -/
abbrev xs (c : Dev nD) : Fin 2000000 → Fin 64 → EReal := fun r j => V c main_arg0 (ix2 r j)
abbrev ts (c : Dev nD) : Fin 2000000 → BitVec 32 := fun r => V c main_v0 (ix2 r 0)

/-! ### What each case of the body leaves in each accumulator: its last store's value -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B_2 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : ¬cond0_0 i) (x : Vec F S25000x64 .f32) (tb : Vec F S25000x1 .i32)
    (xo2 xo3 : Vec F S1x32x64 .f32) (xo4 : Vec F S1x1x32 .f32) :
    out0_B_2 c i a2 h2 a3 h3 a4 h4 a5 h5 a6 h6 hc x tb xo2 xo3 xo4 = k0_pay8 x tb xo2 := by
  unfold out0_B_2
  rw [View.read_writes_eq_canon _ _ _ (cover0_B_2 c i a2 h2 a3 h3 a4 h4 a5 h5 a6 h6 hc x tb xo2 xo3 xo4)]
  unfold kernelRun0_B
  dsimp only
  sl_unfold_words
  rw [View.canon_unit_zero hz3]
  simp only [View.readAt_eq_ld, h2.read_unread, h3.read_unread, h4.read_unread, View.ld_unit_zero (S := S25000x64) hz2,
    View.ld_unit_zero (S := S25000x1) hz2, View.ld_unit_zero (S := S1x32x64) hz3]

theorem out_B_3 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : ¬cond0_0 i) (x : Vec F S25000x64 .f32) (tb : Vec F S25000x1 .i32)
    (xo2 xo3 : Vec F S1x32x64 .f32) (xo4 : Vec F S1x1x32 .f32) :
    out0_B_3 c i a2 h2 a3 h3 a4 h4 a5 h5 a6 h6 hc x tb xo2 xo3 xo4 = k0_pay9 x tb xo3 := by
  unfold out0_B_3
  rw [View.read_writes_eq_canon _ _ _ (cover0_B_3 c i a2 h2 a3 h3 a4 h4 a5 h5 a6 h6 hc x tb xo2 xo3 xo4)]
  unfold kernelRun0_B
  dsimp only
  sl_unfold_words
  rw [View.canon_unit_zero hz3]
  simp only [View.readAt_eq_ld, h2.read_unread, h3.read_unread, h5.read_unread, View.ld_unit_zero (S := S25000x64) hz2,
    View.ld_unit_zero (S := S25000x1) hz2, View.ld_unit_zero (S := S1x32x64) hz3]

theorem out_B_4 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : ¬cond0_0 i) (x : Vec F S25000x64 .f32) (tb : Vec F S25000x1 .i32)
    (xo2 xo3 : Vec F S1x32x64 .f32) (xo4 : Vec F S1x1x32 .f32) :
    out0_B_4 c i a2 h2 a3 h3 a4 h4 a5 h5 a6 h6 hc x tb xo2 xo3 xo4 = k0_pay1 (k0_pay7 tb) (k0_pay10 xo4) := by
  unfold out0_B_4
  rw [View.read_writes_eq_canon _ _ _ (cover0_B_4 c i a2 h2 a3 h3 a4 h4 a5 h5 a6 h6 hc x tb xo2 xo3 xo4)]
  unfold kernelRun0_B
  dsimp only
  sl_unfold_words
  rw [View.canon_unit_zero hz3]
  simp only [View.readAt_eq_ld, h2.read_unread, h3.read_unread, h6.read_unread, View.ld_unit_zero (S := S25000x64) hz2,
    View.ld_unit_zero (S := S25000x1) hz2, View.ld_unit_zero (S := S1x1x32) hz3]

theorem out_A_2 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : cond0_0 i) (x : Vec F S25000x64 .f32) (tb : Vec F S25000x1 .i32) :
    out0_A_2 c i a2 h2 a3 h3 a4 h4 a5 h5 a6 h6 hc x tb = k0_pay8 x tb k0_pay2 := by
  unfold out0_A_2
  rw [View.read_writes_eq_canon _ _ _ (cover0_A_2 c i a2 h2 a3 h3 a4 h4 a5 h5 a6 h6 hc x tb)]
  unfold kernelRun0_A
  dsimp only
  sl_unfold_words
  rw [View.canon_cons_unit_zero (S := S1x32x64) hz3, View.readCov_unit_zero (S := S1x32x64) _ hz3]
  simp only [View.readAt_eq_ld, h2.read_unread, h3.read_unread, View.ld_unit_zero (S := S25000x64) hz2,
    View.ld_unit_zero (S := S25000x1) hz2]

theorem out_A_3 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : cond0_0 i) (x : Vec F S25000x64 .f32) (tb : Vec F S25000x1 .i32) :
    out0_A_3 c i a2 h2 a3 h3 a4 h4 a5 h5 a6 h6 hc x tb = k0_pay9 x tb k0_pay3 := by
  unfold out0_A_3
  rw [View.read_writes_eq_canon _ _ _ (cover0_A_3 c i a2 h2 a3 h3 a4 h4 a5 h5 a6 h6 hc x tb)]
  unfold kernelRun0_A
  dsimp only
  sl_unfold_words
  rw [View.canon_cons_unit_zero (S := S1x32x64) hz3, View.readCov_unit_zero (S := S1x32x64) _ hz3]
  simp only [View.readAt_eq_ld, h2.read_unread, h3.read_unread, View.ld_unit_zero (S := S25000x64) hz2,
    View.ld_unit_zero (S := S25000x1) hz2]

theorem out_A_4 (c : Dev nD) (i : grid0.Coords) (a2 : Memref sig .tc .vmem S25000x64 .f32) (h2 : a2.IsWhole)
    (a3 : Memref sig .tc .vmem S25000x1 .i32) (h3 : a3.IsWhole) (a4 : Memref sig .tc .vmem S1x32x64 .f32) (h4 : a4.IsWhole)
    (a5 : Memref sig .tc .vmem S1x32x64 .f32) (h5 : a5.IsWhole) (a6 : Memref sig .tc .vmem S1x1x32 .f32) (h6 : a6.IsWhole)
    (hc : cond0_0 i) (x : Vec F S25000x64 .f32) (tb : Vec F S25000x1 .i32) :
    out0_A_4 c i a2 h2 a3 h3 a4 h4 a5 h5 a6 h6 hc x tb = k0_pay1 (k0_pay7 tb) (k0_pay10 k0_pay4) := by
  unfold out0_A_4
  rw [View.read_writes_eq_canon _ _ _ (cover0_A_4 c i a2 h2 a3 h3 a4 h4 a5 h5 a6 h6 hc x tb)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, View.ld_unit_zero (S := S25000x64) hz2,
    View.ld_unit_zero (S := S25000x1) hz2]

end Pieces

/-! ### The contraction of the two block products: over the 25000 rows of a block -/

abbrev D := dot_S25000x32_S25000x64_S32x64_0_0_1_1_n_n

theorem D_rank : D.contr.rank = 1 := by simp [DotDims.contr, Shape.ofList, D, dot_S25000x32_S25000x64_S32x64_0_0_1_1_n_n]
theorem D_size : D.contr.size ⟨0, by rw [D_rank]; omega⟩ = 25000 := by
  simp [DotDims.contr, Shape.ofList, D, dot_S25000x32_S25000x64_S32x64_0_0_1_1_n_n]

theorem lhs_0 (j : S32x64.Idx) (k : D.contr.Idx) : (D.lhsIdx j k 0 : ℕ) = k ⟨0, by rw [D_rank]; omega⟩ := by
  simp [DotDims.lhsIdx, D, dot_S25000x32_S25000x64_S32x64_0_0_1_1_n_n]; rfl
theorem lhs_1 (j : S32x64.Idx) (k : D.contr.Idx) : (D.lhsIdx j k 1 : ℕ) = j 0 := by
  simp [DotDims.lhsIdx, D, dot_S25000x32_S25000x64_S32x64_0_0_1_1_n_n]; rfl
theorem rhs_0 (j : S32x64.Idx) (k : D.contr.Idx) : (D.rhsIdx j k 0 : ℕ) = k ⟨0, by rw [D_rank]; omega⟩ := by
  simp [DotDims.rhsIdx, D, dot_S25000x32_S25000x64_S32x64_0_0_1_1_n_n]; rfl
theorem rhs_1 (j : S32x64.Idx) (k : D.contr.Idx) : (D.rhsIdx j k 1 : ℕ) = j 1 := by
  simp [DotDims.rhsIdx, D, dot_S25000x32_S25000x64_S32x64_0_0_1_1_n_n]; rfl

/-- A block product into the zero block, at (k, j): the sum over the block's rows. -/
theorem mm_apply {φ₁ φ₂ : FTy} (L : FVec Ideal S25000x32 φ₁) (R : FVec Ideal S25000x64 φ₂) (k : Fin 32) (j : Fin 64) :
    FloatOps.matmul D none L R (constant S32x64 .f32 0x00000000#32) (ix2 k j)
      = ∑ q : Fin 25000, L (ix2 q k) * R (ix2 q j) := by
  rw [Ideal.matmul_constant_zero_apply, ← Equiv.sum_comp (contrEquiv1 D 25000 D_rank D_size).symm]
  refine Finset.sum_congr rfl fun q _ => ?_
  have hl : D.lhsIdx (ix2 k j) ((contrEquiv1 D 25000 D_rank D_size).symm q) = ix2 q k := by
    funext a
    match a with
    | ⟨0, _⟩ => exact Fin.ext ((lhs_0 _ _).trans (contrEquiv1_symm_val D 25000 D_rank D_size q))
    | ⟨1, _⟩ => exact Fin.ext (lhs_1 _ _)
  have hr : D.rhsIdx (ix2 k j) ((contrEquiv1 D 25000 D_rank D_size).symm q) = ix2 q j := by
    funext a
    match a with
    | ⟨0, _⟩ => exact Fin.ext ((rhs_0 _ _).trans (contrEquiv1_symm_val D 25000 D_rank D_size q))
    | ⟨1, _⟩ => exact Fin.ext (rhs_1 _ _)
  rw [hl, hr]

/-- The indicator the body builds from a block's type words, at (q, k). -/

theorem onehot_apply (tb : Vec Ideal S25000x1 .i32) (q : Fin 25000) (k : Fin 32) :
    k0_pay5 (F := Ideal) tb (ix2 q k) = Cert.Spec.oh (tb (ix2 q 0)) k := by
  unfold k0_pay5
  rw [shapeCast_self]
  show FloatOps.sitofp .f32 ((IntOp.cmpi .eq (broadcastTo S25000x32 tb broadcasts_S25000x1_S25000x32 (ix2 q k))
    (iota .tc S25000x32 32 [1] iota_S25000x32_d1_w32 (ix2 q k))).setWidth 32) = _
  rw [broadcastTo_apply tb broadcasts_S25000x1_S25000x32 (ix2 q k) (ix2 q 0)
    (fun a => match a with | ⟨0, _⟩ => rfl | ⟨1, _⟩ => rfl), iota_single_apply]
  show ((((IntOp.cmpi .eq (tb (ix2 q 0)) (BitVec.ofNat 32 k.val)).setWidth 32).toInt : ℝ) : EReal) = _
  unfold Cert.Spec.oh
  by_cases h : tb (ix2 q 0) = BitVec.ofNat 32 k.val
  · rw [if_pos h, h]
    simp [IntOp.cmpi]
  · have hb : (tb (ix2 q 0) == BitVec.ofNat 32 k.val) = false := beq_eq_false_iff_ne.mpr h
    rw [if_neg h]
    simp [IntOp.cmpi, hb]

/-- The first accumulator's update at (0, k, j): the carried entry plus the block's rows of type k, column j. -/
theorem pay8_apply (x : Vec Ideal S25000x64 .f32) (tb : Vec Ideal S25000x1 .i32) (acc : Vec Ideal S1x32x64 .f32)
    (k : Fin 32) (j : Fin 64) :
    k0_pay8 (F := Ideal) x tb acc (ix3 0 k j)
      = acc (ix3 0 k j) + ∑ q : Fin 25000, Cert.Spec.oh (tb (ix2 q 0)) k * x (ix2 q j) := by
  unfold k0_pay8 k0_pay6
  rw [shapeCast_self]
  show acc (ix3 0 k j) + shapeCast S1x32x64 (FloatOps.matmul D none (truncf .bf16 (k0_pay5 tb) bitsLt_bf16_f32)
    (truncf .bf16 x bitsLt_bf16_f32) (constant S32x64 .f32 0x00000000#32)) shapeCasts_S32x64_S1x32x64 (ix3 0 k j) = _
  rw [shapeCast_ab_1ab_apply, mm_apply]
  refine congrArg (acc (ix3 0 k j) + ·) (Finset.sum_congr rfl fun q _ => ?_)
  show k0_pay5 tb (ix2 q k) * x (ix2 q j) = _
  rw [onehot_apply]

/-- The second accumulator's update: the same of the squares. -/
theorem pay9_apply (x : Vec Ideal S25000x64 .f32) (tb : Vec Ideal S25000x1 .i32) (acc : Vec Ideal S1x32x64 .f32)
    (k : Fin 32) (j : Fin 64) :
    k0_pay9 (F := Ideal) x tb acc (ix3 0 k j)
      = acc (ix3 0 k j) + ∑ q : Fin 25000, Cert.Spec.oh (tb (ix2 q 0)) k * (x (ix2 q j) * x (ix2 q j)) := by
  unfold k0_pay9 k0_pay6
  rw [shapeCast_self]
  show acc (ix3 0 k j) + shapeCast S1x32x64 (FloatOps.matmul D none (truncf .bf16 (k0_pay5 tb) bitsLt_bf16_f32)
    (truncf .bf16 (mulf x x) bitsLt_bf16_f32) (constant S32x64 .f32 0x00000000#32)) shapeCasts_S32x64_S1x32x64 (ix3 0 k j) = _
  rw [shapeCast_ab_1ab_apply, mm_apply]
  refine congrArg (acc (ix3 0 k j) + ·) (Finset.sum_congr rfl fun q _ => ?_)
  show k0_pay5 tb (ix2 q k) * (x (ix2 q j) * x (ix2 q j)) = _
  rw [onehot_apply]

/-- The count's update at (0, 0, k): the carried entry plus the number of the block's rows of type k. -/
theorem pay1_apply (tb : Vec Ideal S25000x1 .i32) (acc : Vec Ideal S1x1x32 .f32) (k : Fin 32) :
    k0_pay1 (F := Ideal) (k0_pay7 tb) (k0_pay10 acc) (ix3 0 0 k)
      = acc (ix3 0 0 k) + ∑ q : Fin 25000, Cert.Spec.oh (tb (ix2 q 0)) k := by
  unfold k0_pay1 k0_pay7 k0_pay10
  rw [shapeCast_self]
  show acc (ix3 0 0 k) + shapeCast S1x1x32 (shapeCast S1x32 (multiReduction .add [0] S32 (k0_pay5 tb) 0x00000000#32
    reduces_S25000x32_S32 (.inl rfl) rfl) shapeCasts_S32_S1x32) shapeCasts_S1x32_S1x1x32 (ix3 0 0 k) = _
  rw [shapeCast_ab_1ab_apply, shapeCast_a_1a_apply]
  refine congrArg (acc (ix3 0 0 k) + ·)
    ((Ideal.multiReduction_add_single (k0_pay5 tb) 0x00000000#32 reduces_S25000x32_S32 (.inl rfl) rfl (ix1 k)).trans ?_)
  show ∑ q : Fin 25000, k0_pay5 tb (reduces_S25000x32_S32.lift (ix1 k) q) = _
  refine Finset.sum_congr rfl fun q _ => ?_
  have hl : reduces_S25000x32_S32.lift (ix1 k) q = ix2 q k := by
    funext a
    match a with
    | ⟨0, _⟩ => exact Fin.ext rfl
    | ⟨1, _⟩ => exact Fin.ext rfl
  rw [hl, onehot_apply]

/-- The zero blocks the first step of a half stores. -/
theorem pay2_apply (i : S1x32x64.Idx) : k0_pay2 (F := Ideal) i = 0 := Ideal.ofBits_zero_f32
theorem pay3_apply (i : S1x32x64.Idx) : k0_pay3 (F := Ideal) i = 0 := Ideal.ofBits_zero_f32
theorem pay4_apply (i : S1x1x32.Idx) : k0_pay4 (F := Ideal) i = 0 := Ideal.ofBits_zero_f32

/-! ### The blocks a point reads -/

theorem hN80 (t : Fin cfg0.N) : t.val < 80 := lt_of_lt_of_eq t.isLt (show cfg0.N = 80 from N_0)

/-- Row q of the n-th block of 25000 rows (n taken below 80). -/
def rowN (n : ℕ) (q : Fin 25000) : Fin 2000000 :=
  ⟨n % 80 * 25000 + q.val, by have := Nat.mod_lt n (show 0 < 80 by decide); have := q.isLt; omega⟩

/-- The block index of the two input windows at a point is the point's number, along the rows. -/
theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)

/-- The blocks of rows and of type words at a point, at their literal types. -/
abbrev xblk (c : Dev nD) (t : Fin cfg0.N) : Vec Ideal S25000x64 .f32 := iblk0 (F := Ideal) V c 0 t
abbrev tblk (c : Dev nD) (t : Fin cfg0.N) : Vec Ideal S25000x1 .i32 := iblk0 (F := Ideal) V c 1 t

theorem xblk_apply (c : Dev nD) (t : Fin cfg0.N) (q : Fin 25000) (j : Fin 64) :
    xblk V c t (ix2 q j) = xs V c (rowN t.val q) j := by
  have ht := hN80 t
  unfold xblk iblk0
  rw [View.read_apply]
  show V c main_arg0 _ = V c main_arg0 _
  congr 1
  funext a
  apply Fin.ext
  match a with
  | ⟨0, _⟩ =>
    show win0_0.index t 0 * 25000 + 1 * q.val = t.val % 80 * 25000 + q.val
    rw [(idx_0 t).1, Nat.mod_eq_of_lt ht]; omega
  | ⟨1, _⟩ =>
    show win0_0.index t 1 * 64 + 1 * j.val = j.val
    rw [(idx_0 t).2]; omega

theorem tblk_apply (c : Dev nD) (t : Fin cfg0.N) (q : Fin 25000) :
    tblk V c t (ix2 q 0) = ts V c (rowN t.val q) := by
  have ht := hN80 t
  unfold tblk iblk0
  rw [View.read_apply]
  show V c main_v0 _ = V c main_v0 _
  congr 1
  funext a
  apply Fin.ext
  match a with
  | ⟨0, _⟩ =>
    show win0_1.index t 0 * 25000 + 1 * q.val = t.val % 80 * 25000 + q.val
    rw [(idx_1 t).1, Nat.mod_eq_of_lt ht]; omega
  | ⟨1, _⟩ =>
    show win0_1.index t 1 * 1 + 1 * 0 = 0
    rw [(idx_1 t).2]

/-- What one block adds to each accumulator entry. -/
def B1 (c : Dev nD) (k : Fin 32) (j : Fin 64) (n : ℕ) : EReal :=
  ∑ q : Fin 25000, Cert.Spec.oh (ts V c (rowN n q)) k * xs V c (rowN n q) j
def B2 (c : Dev nD) (k : Fin 32) (j : Fin 64) (n : ℕ) : EReal :=
  ∑ q : Fin 25000, Cert.Spec.oh (ts V c (rowN n q)) k * (xs V c (rowN n q) j * xs V c (rowN n q) j)
def B0 (c : Dev nD) (k : Fin 32) (n : ℕ) : EReal :=
  ∑ q : Fin 25000, Cert.Spec.oh (ts V c (rowN n q)) k

/-! ### One step of the accumulation, at an entry -/

theorem step1_A (c : Dev nD) (k : Fin 32) (j : Fin 64) (t : Fin cfg0.N) (h0 : t.val % 40 = 0) :
    (outsAt0 (F := Ideal) V c t.val t.isLt).1 (ix3 0 k j) = 0 + B1 V c k j t.val := by
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (tblk V c t)) (ix3 0 k j)).trans ?_
  refine (pay8_apply (xblk V c t) (tblk V c t) (k0_pay2 (F := Ideal)) k j).trans ?_
  rw [pay2_apply]
  refine congrArg (0 + ·) (Finset.sum_congr rfl fun q _ => ?_)
  rw [xblk_apply, tblk_apply]

theorem step1_B (c : Dev nD) (k : Fin 32) (j : Fin 64) (t : Fin cfg0.N) (h0 : ¬t.val % 40 = 0) :
    (outsAt0 (F := Ideal) V c t.val t.isLt).1 (ix3 0 k j)
      = (outsAt0 (F := Ideal) V c (t.val - 1) (Nat.lt_of_le_of_lt (Nat.sub_le _ _) t.isLt)).1 (ix3 0 k j) + B1 V c k j t.val := by
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (tblk V c t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2) (ix3 0 k j)).trans ?_
  refine (pay8_apply (xblk V c t) (tblk V c t) (outsAt0 (F := Ideal) V c (t.val - 1) (Nat.lt_of_le_of_lt (Nat.sub_le _ _) t.isLt)).1 k j).trans ?_
  refine congrArg (_ + ·) (Finset.sum_congr rfl fun q _ => ?_)
  rw [xblk_apply, tblk_apply]

theorem step2_A (c : Dev nD) (k : Fin 32) (j : Fin 64) (t : Fin cfg0.N) (h0 : t.val % 40 = 0) :
    (outsAt0 (F := Ideal) V c t.val t.isLt).2.1 (ix3 0 k j) = 0 + B2 V c k j t.val := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (tblk V c t)) (ix3 0 k j)).trans ?_
  refine (pay9_apply (xblk V c t) (tblk V c t) (k0_pay3 (F := Ideal)) k j).trans ?_
  rw [pay3_apply]
  refine congrArg (0 + ·) (Finset.sum_congr rfl fun q _ => ?_)
  rw [xblk_apply, tblk_apply]

theorem step2_B (c : Dev nD) (k : Fin 32) (j : Fin 64) (t : Fin cfg0.N) (h0 : ¬t.val % 40 = 0) :
    (outsAt0 (F := Ideal) V c t.val t.isLt).2.1 (ix3 0 k j)
      = (outsAt0 (F := Ideal) V c (t.val - 1) (Nat.lt_of_le_of_lt (Nat.sub_le _ _) t.isLt)).2.1 (ix3 0 k j) + B2 V c k j t.val := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (tblk V c t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2) (ix3 0 k j)).trans ?_
  refine (pay9_apply (xblk V c t) (tblk V c t) (outsAt0 (F := Ideal) V c (t.val - 1) (Nat.lt_of_le_of_lt (Nat.sub_le _ _) t.isLt)).2.1 k j).trans ?_
  refine congrArg (_ + ·) (Finset.sum_congr rfl fun q _ => ?_)
  rw [xblk_apply, tblk_apply]

theorem step0_A (c : Dev nD) (k : Fin 32) (t : Fin cfg0.N) (h0 : t.val % 40 = 0) :
    (outsAt0 (F := Ideal) V c t.val t.isLt).2.2 (ix3 0 0 k) = 0 + B0 V c k t.val := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (xblk V c t) (tblk V c t)) (ix3 0 0 k)).trans ?_
  refine (pay1_apply (tblk V c t) (k0_pay4 (F := Ideal)) k).trans ?_
  rw [pay4_apply]
  refine congrArg (0 + ·) (Finset.sum_congr rfl fun q _ => ?_)
  rw [tblk_apply]

theorem step0_B (c : Dev nD) (k : Fin 32) (t : Fin cfg0.N) (h0 : ¬t.val % 40 = 0) :
    (outsAt0 (F := Ideal) V c t.val t.isLt).2.2 (ix3 0 0 k)
      = (outsAt0 (F := Ideal) V c (t.val - 1) (Nat.lt_of_le_of_lt (Nat.sub_le _ _) t.isLt)).2.2 (ix3 0 0 k) + B0 V c k t.val := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk V c t) (tblk V c t)
    (outsAt0 (F := Ideal) V c (t.val - 1) (Nat.lt_of_le_of_lt (Nat.sub_le _ _) t.isLt)).1 (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2) (ix3 0 0 k)).trans ?_
  refine (pay1_apply (tblk V c t) (outsAt0 (F := Ideal) V c (t.val - 1) (Nat.lt_of_le_of_lt (Nat.sub_le _ _) t.isLt)).2.2 k).trans ?_
  refine congrArg (_ + ·) (Finset.sum_congr rfl fun q _ => ?_)
  rw [tblk_apply]

/-! ### The accumulation over the points, in closed form -/

/-- A running sum that starts afresh at every fortieth step. -/
def chainN (f : ℕ → EReal) : ℕ → EReal
  | 0 => 0 + f 0
  | n + 1 => if (n + 1) % 40 = 0 then 0 + f (n + 1) else chainN f n + f (n + 1)

/-- After step n it holds the terms of n's own stretch of forty, up to n. -/
theorem chainN_eq (f : ℕ → EReal) : ∀ n : ℕ, chainN f n = 0 + ∑ s ∈ Finset.range (n % 40 + 1), f (n - n % 40 + s)
  | 0 => by simp [chainN]
  | n + 1 => by
    unfold chainN
    by_cases h0 : (n + 1) % 40 = 0
    · rw [if_pos h0, h0]; simp
    · rw [if_neg h0, chainN_eq f n]
      have e1 : (n + 1) % 40 = n % 40 + 1 := by omega
      have e2 : n + 1 - (n % 40 + 1) = n - n % 40 := by omega
      rw [e1, e2, Finset.sum_range_succ _ (n % 40 + 1), ← add_assoc]
      congr 2
      omega

/-- At the last step of half κ: the forty terms of that half. -/
theorem chainN_last (f : ℕ → EReal) (κ : Fin 2) : chainN f (κ.val * 40 + 39) = ∑ s : Fin 40, f (κ.val * 40 + s.val) := by
  rw [chainN_eq, zero_add]
  have e1 : (κ.val * 40 + 39) % 40 + 1 = 40 := by omega
  have e2 : κ.val * 40 + 39 - (κ.val * 40 + 39) % 40 = κ.val * 40 := by omega
  rw [e1, e2, Finset.sum_range]

theorem outs1_eq (c : Dev nD) (k : Fin 32) (j : Fin 64) : ∀ (n : ℕ) (h : n < cfg0.N),
    (outsAt0 (F := Ideal) V c n h).1 (ix3 0 k j) = chainN (B1 V c k j) n
  | 0, h => step1_A V c k j ⟨0, h⟩ rfl
  | n + 1, h => by
    unfold chainN
    by_cases h0 : (n + 1) % 40 = 0
    · rw [if_pos h0]; exact step1_A V c k j ⟨n + 1, h⟩ h0
    · rw [if_neg h0, ← outs1_eq c k j n (Nat.lt_of_succ_lt h)]; exact step1_B V c k j ⟨n + 1, h⟩ h0

theorem outs2_eq (c : Dev nD) (k : Fin 32) (j : Fin 64) : ∀ (n : ℕ) (h : n < cfg0.N),
    (outsAt0 (F := Ideal) V c n h).2.1 (ix3 0 k j) = chainN (B2 V c k j) n
  | 0, h => step2_A V c k j ⟨0, h⟩ rfl
  | n + 1, h => by
    unfold chainN
    by_cases h0 : (n + 1) % 40 = 0
    · rw [if_pos h0]; exact step2_A V c k j ⟨n + 1, h⟩ h0
    · rw [if_neg h0, ← outs2_eq c k j n (Nat.lt_of_succ_lt h)]; exact step2_B V c k j ⟨n + 1, h⟩ h0

theorem outs0_eq (c : Dev nD) (k : Fin 32) : ∀ (n : ℕ) (h : n < cfg0.N),
    (outsAt0 (F := Ideal) V c n h).2.2 (ix3 0 0 k) = chainN (B0 V c k) n
  | 0, h => step0_A V c k ⟨0, h⟩ rfl
  | n + 1, h => by
    unfold chainN
    by_cases h0 : (n + 1) % 40 = 0
    · rw [if_pos h0]; exact step0_A V c k ⟨n + 1, h⟩ h0
    · rw [if_neg h0, ← outs0_eq c k n (Nat.lt_of_succ_lt h)]; exact step0_B V c k ⟨n + 1, h⟩ h0

/-- The n-th block of rows, n = 40 κ + s, is block s of half κ. -/
theorem rowN_eq (κ : Fin 2) (s : Fin 40) (q : Fin 25000) : rowN (κ.val * 40 + s.val) q = Cert.Spec.row κ s q := by
  apply Fin.ext
  show (κ.val * 40 + s.val) % 80 * 25000 + q.val = (κ.val * 40 + s.val) * 25000 + q.val
  have := κ.isLt; have := s.isLt
  rw [Nat.mod_eq_of_lt (by omega)]

theorem last1 (c : Dev nD) (κ : Fin 2) (k : Fin 32) (j : Fin 64) :
    chainN (B1 V c k j) (κ.val * 40 + 39) = Cert.Spec.hsum1 (xs V c) (ts V c) κ k j := by
  rw [chainN_last]
  unfold Cert.Spec.hsum1 B1
  simp only [rowN_eq]
theorem last2 (c : Dev nD) (κ : Fin 2) (k : Fin 32) (j : Fin 64) :
    chainN (B2 V c k j) (κ.val * 40 + 39) = Cert.Spec.hsum2 (xs V c) (ts V c) κ k j := by
  rw [chainN_last]
  unfold Cert.Spec.hsum2 B2
  simp only [rowN_eq]
theorem last0 (c : Dev nD) (κ : Fin 2) (k : Fin 32) :
    chainN (B0 V c k) (κ.val * 40 + 39) = Cert.Spec.hcnt (ts V c) κ k := by
  rw [chainN_last]
  unfold Cert.Spec.hcnt B0
  simp only [rowN_eq]

/-! ### The write-backs: each half's last step writes its block of the result -/

/-- What the three result arrays end at. -/
abbrev G1 (c : Dev nD) : Vec Ideal S2x32x64 .f32 := fun i => Cert.Spec.hsum1 (xs V c) (ts V c) (i 0) (i 1) (i 2)
abbrev G2 (c : Dev nD) : Vec Ideal S2x32x64 .f32 := fun i => Cert.Spec.hsum2 (xs V c) (ts V c) (i 0) (i 1) (i 2)
abbrev G0 (c : Dev nD) : Vec Ideal S2x1x32 .f32 := fun i => Cert.Spec.hcnt (ts V c) (i 0) (i 2)

/-- The output windows' block index at a point: the half, and nothing else. -/
theorem idx_2 : ∀ t : Fin cfg0.N, win0_2.index t 0 = t.val / 40 ∧ win0_2.index t 1 = 0 ∧ win0_2.index t 2 = 0 :=
  (by decide +kernel : ∀ t : Fin grid0.N, win0_2.index t 0 = t.val / 40 ∧ win0_2.index t 1 = 0 ∧ win0_2.index t 2 = 0)
theorem idx_3 : ∀ t : Fin cfg0.N, win0_3.index t 0 = t.val / 40 ∧ win0_3.index t 1 = 0 ∧ win0_3.index t 2 = 0 :=
  (by decide +kernel : ∀ t : Fin grid0.N, win0_3.index t 0 = t.val / 40 ∧ win0_3.index t 1 = 0 ∧ win0_3.index t 2 = 0)
theorem idx_4 : ∀ t : Fin cfg0.N, win0_4.index t 0 = t.val / 40 ∧ win0_4.index t 1 = 0 ∧ win0_4.index t 2 = 0 :=
  (by decide +kernel : ∀ t : Fin grid0.N, win0_4.index t 0 = t.val / 40 ∧ win0_4.index t 1 = 0 ∧ win0_4.index t 2 = 0)

theorem flushed1_eq (c : Dev nD) (t : Fin cfg0.N) (hf : (cfg0.win 2).flush t = true) :
    (dat0 (F := Ideal) V c).flushed 2 t = ((cfg0.win 2).blk t).view.read (Elt Ideal) (G1 V c) := by
  have ht := hN80 t
  have h39 : t.val % 40 = 39 := (flush0_2 t).mp hf
  obtain ⟨κ, hκ⟩ : ∃ κ : Fin 2, t.val = κ.val * 40 + 39 := ⟨⟨t.val / 40, by omega⟩, by show t.val = t.val / 40 * 40 + 39; omega⟩
  have key : ∀ y' : S1x32x64.Idx, (outsAt0 (F := Ideal) V c t.val t.isLt).1 y'
      = Cert.Spec.hsum1 (xs V c) (ts V c) κ (y' 1) (y' 2) := by
    intro y'
    obtain ⟨a, b, d, rfl⟩ : ∃ a b d, y' = ix3 a b d := ⟨_, _, _, eq_ix3 y'⟩
    obtain rfl : a = 0 := Subsingleton.elim _ _
    rw [outs1_eq V c b d t.val t.isLt, hκ, last1]
  show (cfg0.win 2).cut (grid0.coords t) ((dat0 (F := Ideal) V c).after 2 t) = _
  rw [after0_2]
  funext y
  rw [View.read_apply]
  refine (key y).trans ?_
  have hy0 : (y 0).val < 1 := (y 0).isLt
  have e0 : (((cfg0.win 2).blk t).view.emb y 0 : ℕ) = κ.val := by
    show win0_2.index t 0 * 1 + 1 * (y 0).val = κ.val
    rw [(idx_2 t).1]; omega
  have e1 : (((cfg0.win 2).blk t).view.emb y 1 : ℕ) = (y 1).val := by
    show win0_2.index t 1 * 32 + 1 * (y 1).val = (y 1).val
    rw [(idx_2 t).2.1]; omega
  have e2 : (((cfg0.win 2).blk t).view.emb y 2 : ℕ) = (y 2).val := by
    show win0_2.index t 2 * 64 + 1 * (y 2).val = (y 2).val
    rw [(idx_2 t).2.2]; omega
  show Cert.Spec.hsum1 (xs V c) (ts V c) κ (y 1) (y 2)
    = Cert.Spec.hsum1 (xs V c) (ts V c) (((cfg0.win 2).blk t).view.emb y 0) (((cfg0.win 2).blk t).view.emb y 1) (((cfg0.win 2).blk t).view.emb y 2)
  rw [show (((cfg0.win 2).blk t).view.emb y 0 : Fin 2) = κ from Fin.ext e0,
    show (((cfg0.win 2).blk t).view.emb y 1 : Fin 32) = y 1 from Fin.ext e1,
    show (((cfg0.win 2).blk t).view.emb y 2 : Fin 64) = y 2 from Fin.ext e2]

theorem flushed2_eq (c : Dev nD) (t : Fin cfg0.N) (hf : (cfg0.win 3).flush t = true) :
    (dat0 (F := Ideal) V c).flushed 3 t = ((cfg0.win 3).blk t).view.read (Elt Ideal) (G2 V c) := by
  have ht := hN80 t
  have h39 : t.val % 40 = 39 := (flush0_3 t).mp hf
  obtain ⟨κ, hκ⟩ : ∃ κ : Fin 2, t.val = κ.val * 40 + 39 := ⟨⟨t.val / 40, by omega⟩, by show t.val = t.val / 40 * 40 + 39; omega⟩
  have key : ∀ y' : S1x32x64.Idx, (outsAt0 (F := Ideal) V c t.val t.isLt).2.1 y'
      = Cert.Spec.hsum2 (xs V c) (ts V c) κ (y' 1) (y' 2) := by
    intro y'
    obtain ⟨a, b, d, rfl⟩ : ∃ a b d, y' = ix3 a b d := ⟨_, _, _, eq_ix3 y'⟩
    obtain rfl : a = 0 := Subsingleton.elim _ _
    rw [outs2_eq V c b d t.val t.isLt, hκ, last2]
  show (cfg0.win 3).cut (grid0.coords t) ((dat0 (F := Ideal) V c).after 3 t) = _
  rw [after0_3]
  funext y
  rw [View.read_apply]
  refine (key y).trans ?_
  have hy0 : (y 0).val < 1 := (y 0).isLt
  have e0 : (((cfg0.win 3).blk t).view.emb y 0 : ℕ) = κ.val := by
    show win0_3.index t 0 * 1 + 1 * (y 0).val = κ.val
    rw [(idx_3 t).1]; omega
  have e1 : (((cfg0.win 3).blk t).view.emb y 1 : ℕ) = (y 1).val := by
    show win0_3.index t 1 * 32 + 1 * (y 1).val = (y 1).val
    rw [(idx_3 t).2.1]; omega
  have e2 : (((cfg0.win 3).blk t).view.emb y 2 : ℕ) = (y 2).val := by
    show win0_3.index t 2 * 64 + 1 * (y 2).val = (y 2).val
    rw [(idx_3 t).2.2]; omega
  show Cert.Spec.hsum2 (xs V c) (ts V c) κ (y 1) (y 2)
    = Cert.Spec.hsum2 (xs V c) (ts V c) (((cfg0.win 3).blk t).view.emb y 0) (((cfg0.win 3).blk t).view.emb y 1) (((cfg0.win 3).blk t).view.emb y 2)
  rw [show (((cfg0.win 3).blk t).view.emb y 0 : Fin 2) = κ from Fin.ext e0,
    show (((cfg0.win 3).blk t).view.emb y 1 : Fin 32) = y 1 from Fin.ext e1,
    show (((cfg0.win 3).blk t).view.emb y 2 : Fin 64) = y 2 from Fin.ext e2]

theorem flushed0_eq (c : Dev nD) (t : Fin cfg0.N) (hf : (cfg0.win 4).flush t = true) :
    (dat0 (F := Ideal) V c).flushed 4 t = ((cfg0.win 4).blk t).view.read (Elt Ideal) (G0 V c) := by
  have ht := hN80 t
  have h39 : t.val % 40 = 39 := (flush0_4 t).mp hf
  obtain ⟨κ, hκ⟩ : ∃ κ : Fin 2, t.val = κ.val * 40 + 39 := ⟨⟨t.val / 40, by omega⟩, by show t.val = t.val / 40 * 40 + 39; omega⟩
  have key : ∀ y' : S1x1x32.Idx, (outsAt0 (F := Ideal) V c t.val t.isLt).2.2 y'
      = Cert.Spec.hcnt (ts V c) κ (y' 2) := by
    intro y'
    obtain ⟨a, b, d, rfl⟩ : ∃ a b d, y' = ix3 a b d := ⟨_, _, _, eq_ix3 y'⟩
    obtain rfl : a = 0 := Subsingleton.elim _ _
    obtain rfl : b = 0 := Subsingleton.elim _ _
    rw [outs0_eq V c d t.val t.isLt, hκ, last0]
  show (cfg0.win 4).cut (grid0.coords t) ((dat0 (F := Ideal) V c).after 4 t) = _
  rw [after0_4]
  funext y
  rw [View.read_apply]
  refine (key y).trans ?_
  have hy0 : (y 0).val < 1 := (y 0).isLt
  have e0 : (((cfg0.win 4).blk t).view.emb y 0 : ℕ) = κ.val := by
    show win0_4.index t 0 * 1 + 1 * (y 0).val = κ.val
    rw [(idx_4 t).1]; omega
  have e2 : (((cfg0.win 4).blk t).view.emb y 2 : ℕ) = (y 2).val := by
    show win0_4.index t 2 * 32 + 1 * (y 2).val = (y 2).val
    rw [(idx_4 t).2.2]; omega
  show Cert.Spec.hcnt (ts V c) κ (y 2)
    = Cert.Spec.hcnt (ts V c) (((cfg0.win 4).blk t).view.emb y 0) (((cfg0.win 4).blk t).view.emb y 2)
  rw [show (((cfg0.win 4).blk t).view.emb y 0 : Fin 2) = κ from Fin.ext e0,
    show (((cfg0.win 4).blk t).view.emb y 2 : Fin 32) = y 2 from Fin.ext e2]

theorem sum1 (c : Dev nD) (κ : Fin 2) (k : Fin 32) (j : Fin 64) :
    (dat0 (F := Ideal) V c).arrAt 2 cfg0.N (ix3 κ k j) = Cert.Spec.hsum1 (xs V c) (ts V c) κ k j := by
  have hκ := κ.isLt
  have hlt : κ.val * 40 + 39 < cfg0.N := by rw [show cfg0.N = 80 from N_0]; omega
  refine (dat0 (F := Ideal) V c).arrAt_apply_of_mem 2 (G1 V c) (flushed1_eq V c) cfg0.N ⟨κ.val * 40 + 39, hlt⟩ (ix3 κ k j) hlt
    ((flush0_2 _).mpr (by show (κ.val * 40 + 39) % 40 = 39; omega)) ?_
  show ix3 κ k j ∈ ((View.whole main_v1_0).slice (win0_2.rect ⟨κ.val * 40 + 39, hlt⟩)).set
  rw [View.set_slice_whole, Rect.mem_set_unit]
  intro a
  match a with
  | ⟨0, _⟩ =>
    show win0_2.index ⟨κ.val * 40 + 39, hlt⟩ 0 * 1 ≤ κ.val ∧ κ.val < win0_2.index ⟨κ.val * 40 + 39, hlt⟩ 0 * 1 + 1
    rw [(idx_2 ⟨κ.val * 40 + 39, hlt⟩).1]; show (κ.val * 40 + 39) / 40 * 1 ≤ κ.val ∧ κ.val < (κ.val * 40 + 39) / 40 * 1 + 1; omega
  | ⟨1, _⟩ =>
    show win0_2.index ⟨κ.val * 40 + 39, hlt⟩ 1 * 32 ≤ k.val ∧ k.val < win0_2.index ⟨κ.val * 40 + 39, hlt⟩ 1 * 32 + 32
    rw [(idx_2 ⟨κ.val * 40 + 39, hlt⟩).2.1]; have := k.isLt; omega
  | ⟨2, _⟩ =>
    show win0_2.index ⟨κ.val * 40 + 39, hlt⟩ 2 * 64 ≤ j.val ∧ j.val < win0_2.index ⟨κ.val * 40 + 39, hlt⟩ 2 * 64 + 64
    rw [(idx_2 ⟨κ.val * 40 + 39, hlt⟩).2.2]; have := j.isLt; omega

theorem sum2 (c : Dev nD) (κ : Fin 2) (k : Fin 32) (j : Fin 64) :
    (dat0 (F := Ideal) V c).arrAt 3 cfg0.N (ix3 κ k j) = Cert.Spec.hsum2 (xs V c) (ts V c) κ k j := by
  have hκ := κ.isLt
  have hlt : κ.val * 40 + 39 < cfg0.N := by rw [show cfg0.N = 80 from N_0]; omega
  refine (dat0 (F := Ideal) V c).arrAt_apply_of_mem 3 (G2 V c) (flushed2_eq V c) cfg0.N ⟨κ.val * 40 + 39, hlt⟩ (ix3 κ k j) hlt
    ((flush0_3 _).mpr (by show (κ.val * 40 + 39) % 40 = 39; omega)) ?_
  show ix3 κ k j ∈ ((View.whole main_v1_1).slice (win0_3.rect ⟨κ.val * 40 + 39, hlt⟩)).set
  rw [View.set_slice_whole, Rect.mem_set_unit]
  intro a
  match a with
  | ⟨0, _⟩ =>
    show win0_3.index ⟨κ.val * 40 + 39, hlt⟩ 0 * 1 ≤ κ.val ∧ κ.val < win0_3.index ⟨κ.val * 40 + 39, hlt⟩ 0 * 1 + 1
    rw [(idx_3 ⟨κ.val * 40 + 39, hlt⟩).1]; show (κ.val * 40 + 39) / 40 * 1 ≤ κ.val ∧ κ.val < (κ.val * 40 + 39) / 40 * 1 + 1; omega
  | ⟨1, _⟩ =>
    show win0_3.index ⟨κ.val * 40 + 39, hlt⟩ 1 * 32 ≤ k.val ∧ k.val < win0_3.index ⟨κ.val * 40 + 39, hlt⟩ 1 * 32 + 32
    rw [(idx_3 ⟨κ.val * 40 + 39, hlt⟩).2.1]; have := k.isLt; omega
  | ⟨2, _⟩ =>
    show win0_3.index ⟨κ.val * 40 + 39, hlt⟩ 2 * 64 ≤ j.val ∧ j.val < win0_3.index ⟨κ.val * 40 + 39, hlt⟩ 2 * 64 + 64
    rw [(idx_3 ⟨κ.val * 40 + 39, hlt⟩).2.2]; have := j.isLt; omega

theorem cnt (c : Dev nD) (κ : Fin 2) (k : Fin 32) :
    (dat0 (F := Ideal) V c).arrAt 4 cfg0.N (ix3 κ 0 k) = Cert.Spec.hcnt (ts V c) κ k := by
  have hκ := κ.isLt
  have hlt : κ.val * 40 + 39 < cfg0.N := by rw [show cfg0.N = 80 from N_0]; omega
  refine (dat0 (F := Ideal) V c).arrAt_apply_of_mem 4 (G0 V c) (flushed0_eq V c) cfg0.N ⟨κ.val * 40 + 39, hlt⟩ (ix3 κ 0 k) hlt
    ((flush0_4 _).mpr (by show (κ.val * 40 + 39) % 40 = 39; omega)) ?_
  show ix3 κ 0 k ∈ ((View.whole main_v1_2).slice (win0_4.rect ⟨κ.val * 40 + 39, hlt⟩)).set
  rw [View.set_slice_whole, Rect.mem_set_unit]
  intro a
  match a with
  | ⟨0, _⟩ =>
    show win0_4.index ⟨κ.val * 40 + 39, hlt⟩ 0 * 1 ≤ κ.val ∧ κ.val < win0_4.index ⟨κ.val * 40 + 39, hlt⟩ 0 * 1 + 1
    rw [(idx_4 ⟨κ.val * 40 + 39, hlt⟩).1]; show (κ.val * 40 + 39) / 40 * 1 ≤ κ.val ∧ κ.val < (κ.val * 40 + 39) / 40 * 1 + 1; omega
  | ⟨1, _⟩ =>
    show win0_4.index ⟨κ.val * 40 + 39, hlt⟩ 1 * 1 ≤ 0 ∧ 0 < win0_4.index ⟨κ.val * 40 + 39, hlt⟩ 1 * 1 + 1
    rw [(idx_4 ⟨κ.val * 40 + 39, hlt⟩).2.1]; omega
  | ⟨2, _⟩ =>
    show win0_4.index ⟨κ.val * 40 + 39, hlt⟩ 2 * 32 ≤ k.val ∧ k.val < win0_4.index ⟨κ.val * 40 + 39, hlt⟩ 2 * 32 + 32
    rw [(idx_4 ⟨κ.val * 40 + 39, hlt⟩).2.2]; have := k.isLt; omega

end Cert.KernelIdeal.R0

end
-- ==== Proof.Region1.lean ====
/-
  The second region of the kernel's program: what its result array holds when it ends. Each of the 125 grid points
  takes 16000 rows; the body multiplies the rows' indicator matrix with each of the four tables (a row's sum of the
  indicator against a table column: the table's row selected by the row's type) and leaves
  x · (hi + lo of the scale) + (hi + lo of the shift).
-/
import proofs.«405719_j88347477279067_2_alg».proof.Proof.Gen.KernelIdeal.Frame
import proofs.«405719_j88347477279067_2_alg».proof.Proof.Spec
import Idealize.ShloMosaic.Lib.Pipeline.Value
import Idealize.ShloMosaic.PureOps.Ideal.Laws
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-! ### The products' index maps: the left factor is read along its row, the right factor down its column -/

private theorem lhs_row (i : S16000x64.Idx) (k : dot_S16000x32_S32x64_S16000x64_1_0_0_1_n_n.contr.Idx) :
    (dot_S16000x32_S32x64_S16000x64_1_0_0_1_n_n.lhsIdx i k 0).val = (i 0).val := by
  simp [DotDims.lhsIdx, dot_S16000x32_S32x64_S16000x64_1_0_0_1_n_n]; rfl

private theorem lhs_col (i : S16000x64.Idx) (k : dot_S16000x32_S32x64_S16000x64_1_0_0_1_n_n.contr.Idx) :
    (dot_S16000x32_S32x64_S16000x64_1_0_0_1_n_n.lhsIdx i k 1).val = (k ⟨0, by decide⟩).val :=
  DotDims.lhsIdx_val_of_single _ rfl i k

private theorem rhs_row (i : S16000x64.Idx) (k : dot_S16000x32_S32x64_S16000x64_1_0_0_1_n_n.contr.Idx) :
    (dot_S16000x32_S32x64_S16000x64_1_0_0_1_n_n.rhsIdx i k 0).val = (k ⟨0, by decide⟩).val :=
  DotDims.rhsIdx_val_of_single _ rfl i k

private theorem rhs_col (i : S16000x64.Idx) (k : dot_S16000x32_S32x64_S16000x64_1_0_0_1_n_n.contr.Idx) :
    (dot_S16000x32_S32x64_S16000x64_1_0_0_1_n_n.rhsIdx i k 1).val = (i 1).val := by
  simp [DotDims.rhsIdx, dot_S16000x32_S32x64_S16000x64_1_0_0_1_n_n]; rfl

/-- A product into the zero accumulator, read at row `q` and column `j`: the sum over the 32 types of the left
    factor's row against the right factor's column. -/
private theorem prod_apply {φ₁ φ₂ : FTy} (A : FVec Ideal S16000x32 φ₁) (B : FVec Ideal S32x64 φ₂) (q : Fin 16000) (j : Fin 64) :
    matmul dot_S16000x32_S32x64_S16000x64_1_0_0_1_n_n none A B (constant (F := Ideal) S16000x64 .f32 0x00000000#32) (ix2 q j)
      = ∑ k : Fin 32, A (ix2 q k) * B (ix2 k j) := by
  simp only [matmul]
  rw [Ideal.matmul_constant_zero_apply,
    ← Equiv.sum_comp (contrEquiv1 dot_S16000x32_S32x64_S16000x64_1_0_0_1_n_n 32 rfl rfl).symm]
  refine Finset.sum_congr rfl fun k _ => ?_
  have hk := contrEquiv1_symm_val dot_S16000x32_S32x64_S16000x64_1_0_0_1_n_n 32 rfl rfl k
  have l : dot_S16000x32_S32x64_S16000x64_1_0_0_1_n_n.lhsIdx (ix2 q j)
      ((contrEquiv1 dot_S16000x32_S32x64_S16000x64_1_0_0_1_n_n 32 rfl rfl).symm k) = ix2 q k := by
    funext a; apply Fin.ext
    match a with
    | ⟨0, _⟩ => exact lhs_row _ _
    | ⟨1, _⟩ => exact (lhs_col _ _).trans hk
  have r : dot_S16000x32_S32x64_S16000x64_1_0_0_1_n_n.rhsIdx (ix2 q j)
      ((contrEquiv1 dot_S16000x32_S32x64_S16000x64_1_0_0_1_n_n 32 rfl rfl).symm k) = ix2 k j := by
    funext a; apply Fin.ext
    match a with
    | ⟨0, _⟩ => exact (rhs_row _ _).trans hk
    | ⟨1, _⟩ => exact rhs_col _ _
  rw [l, r]

/-- The float of a comparison's bit widened to a word: one where the two words agree, zero where they differ. -/
private theorem bit_val (a b : BitVec 32) :
    (FloatOps.sitofp (F := Ideal) .f32 ((IntOp.cmpi .eq a b).setWidth 32) : EReal) = if a = b then 1 else 0 := by
  by_cases h : a = b
  · rw [if_pos h, IntOp.cmpi_eq.mpr h]
    show (((((1#1 : BitVec 1).setWidth 32).toInt : ℤ) : ℝ) : EReal) = 1
    rw [show ((1#1 : BitVec 1).setWidth 32).toInt = 1 by decide]
    simp
  · rw [if_neg h, eq_zero_of_ne_one (fun h1 => h (IntOp.cmpi_eq.mp h1))]
    show (((((0#1 : BitVec 1).setWidth 32).toInt : ℤ) : ℝ) : EReal) = 0
    rw [show ((0#1 : BitVec 1).setWidth 32).toInt = 0 by decide]
    simp

/-- The indicator matrix the body builds from a block's type words (each row's word spread along the row and compared
    with the column's number), at row `q` and type `k`. -/
private theorem ind_apply (x1 : IVec S16000x1 32) (q : Fin 16000) (k : Fin 32) :
    (truncf .bf16 (sitofp .f32 (extui 32 (cmpi .eq
        (broadcastTo S16000x32 x1 broadcasts_S16000x1_S16000x32)
        (iota .tc S16000x32 32 [1] iota_S16000x32_d1_w32)) natLt_1_32) : FVec Ideal S16000x32 .f32) bitsLt_bf16_f32
      : FVec Ideal S16000x32 .bf16) (ix2 q k) = Cert.Spec.oh (x1 (ix2 q 0)) k := by
  have hb : broadcastTo S16000x32 x1 broadcasts_S16000x1_S16000x32 (ix2 q k) = x1 (ix2 q 0) := by
    refine broadcastTo_apply _ _ (ix2 q k) (ix2 q 0) fun a => ?_
    match a with
    | ⟨0, _⟩ => rfl
    | ⟨1, _⟩ => rfl
  have hi : iota .tc S16000x32 32 [1] iota_S16000x32_d1_w32 (ix2 q k) = BitVec.ofNat 32 k.val :=
    iota_single_apply .tc S16000x32 32 1 iota_S16000x32_d1_w32 (ix2 q k)
  show (FloatOps.sitofp (F := Ideal) .f32 ((IntOp.cmpi .eq
      (broadcastTo S16000x32 x1 broadcasts_S16000x1_S16000x32 (ix2 q k))
      (iota .tc S16000x32 32 [1] iota_S16000x32_d1_w32 (ix2 q k))).setWidth 32) : EReal) = _
  rw [hb, hi, bit_val]
  rfl

/-- The body's result at row `q` and column `j` of a block: the row's entry times the two scale tables' rows selected
    by the row's type word, plus the two shift tables' rows selected the same way. -/
private theorem pay_apply (x0 : Vec Ideal S16000x64 .f32) (x1 : Vec Ideal S16000x1 .i32)
    (x2 x3 x4 x5 : Vec Ideal S32x64 .bf16) (q : Fin 16000) (j : Fin 64) :
    k1_pay1 (F := Ideal) x0 x1 x2 x3 x4 x5 (ix2 q j)
      = x0 (ix2 q j)
          * ((∑ k : Fin 32, Cert.Spec.oh (x1 (ix2 q 0)) k * x2 (ix2 k j))
            + (∑ k : Fin 32, Cert.Spec.oh (x1 (ix2 q 0)) k * x3 (ix2 k j)))
        + ((∑ k : Fin 32, Cert.Spec.oh (x1 (ix2 q 0)) k * x4 (ix2 k j))
            + (∑ k : Fin 32, Cert.Spec.oh (x1 (ix2 q 0)) k * x5 (ix2 k j))) := by
  unfold k1_pay1
  simp only [addf_apply, mulf_apply, prod_apply, shapeCast_self]
  refine congrArg₂ (· + ·) (congrArg (x0 (ix2 q j) * ·) (congrArg₂ (· + ·) ?_ ?_)) (congrArg₂ (· + ·) ?_ ?_)
  · exact Finset.sum_congr rfl fun k _ => congrArg (· * x2 (ix2 k j)) (ind_apply x1 q k)
  · exact Finset.sum_congr rfl fun k _ => congrArg (· * x3 (ix2 k j)) (ind_apply x1 q k)
  · exact Finset.sum_congr rfl fun k _ => congrArg (· * x4 (ix2 k j)) (ind_apply x1 q k)
  · exact Finset.sum_congr rfl fun k _ => congrArg (· * x5 (ix2 k j)) (ind_apply x1 q k)

variable (V : (c : Dev nD) → (b : Ref sig .tc) → Buf (Elt Ideal) ((c : Thread nD τ).loc b))

/-- The rows, their type words and the four tables as the region finds them. -/
abbrev xs (c : Dev nD) : Fin 2000000 → Fin 64 → EReal := fun r j => V c main_arg0 (ix2 r j)
abbrev ts (c : Dev nD) : Fin 2000000 → BitVec 32 := fun r => V c main_v0 (ix2 r 0)
abbrev scaleHi (c : Dev nD) : Fin 32 → Fin 64 → EReal := fun k j => V c main_v21 (ix2 k j)
abbrev scaleLo (c : Dev nD) : Fin 32 → Fin 64 → EReal := fun k j => V c main_v24 (ix2 k j)
abbrev shiftHi (c : Dev nD) : Fin 32 → Fin 64 → EReal := fun k j => V c main_v25 (ix2 k j)
abbrev shiftLo (c : Dev nD) : Fin 32 → Fin 64 → EReal := fun k j => V c main_v28 (ix2 k j)

/-- What the region leaves at row `r` and column `j`. -/
private def resAt (c : Dev nD) (r : Fin 2000000) (j : Fin 64) : EReal :=
  xs V c r j
      * (Cert.Spec.sel (ts V c r) (fun k => scaleHi V c k j) + Cert.Spec.sel (ts V c r) (fun k => scaleLo V c k j))
    + (Cert.Spec.sel (ts V c r) (fun k => shiftHi V c k j) + Cert.Spec.sel (ts V c r) (fun k => shiftLo V c k j))

/-- The same as one function of the result array's index. -/
private abbrev res (c : Dev nD) : S2000000x64.Idx → EReal := fun i => resAt V c (i 0) (i 1)

private theorem hz : (![0, 0] : Fin 2 → Nat) = fun _ => 0 := funext fun a => by fin_cases a <;> rfl

/-- The index maps over the 125 points: the windows of the rows, of their type words and of the result sit at block
    `t` down the rows; the four tables' windows never move. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point `t` writes back block `t` of `res`: row `q` of each row window's block is row `16000 t + q` of its array, and
    the tables' blocks are the tables. -/
private theorem flushed_eq (c : Dev nD) (t : Fin cfg1.N) :
    (dat1 (F := Ideal) V c).flushed 6 t = ((cfg1.win 6).blk t).view.read (Elt Ideal) (res V c) := by
  show (cfg1.win 6).cut (grid1.coords t) ((dat1 (F := Ideal) V c).after 6 t) = _
  rw [after1_6]
  unfold out1_6
  rw [View.canon_unit_zero hz]
  simp only [View.ld_unit_zero (S := S16000x64) hz, View.ld_unit_zero (S := S16000x1) hz, View.ld_unit_zero (S := S32x64) hz]
  funext y
  obtain ⟨q, j, rfl⟩ : ∃ (q : Fin 16000) (j : Fin 64), y = ix2 q j := ⟨y 0, y 1, eq_ix2 y⟩
  obtain ⟨e00, e01, e10, e11, e20, e21, e30, e31, e40, e41, e50, e51, e60, e61⟩ := idx_facts t
  have ht : t.val < 125 := lt_of_lt_of_eq t.isLt N_1
  have hq : q.val < 16000 := q.isLt
  obtain ⟨R, hR⟩ : ∃ R : Fin 2000000, R.val = t.val * 16000 + q.val := ⟨⟨t.val * 16000 + q.val, by omega⟩, rfl⟩
  have h6 : ((cfg1.win 6).blk t).view.emb (ix2 q j) = ix2 R j := by
    funext a; apply Fin.ext
    match a with
    | ⟨0, _⟩ => show win1_6.index t (0 : Fin 2) * 16000 + 1 * q.val = R.val; omega
    | ⟨1, _⟩ => show win1_6.index t (1 : Fin 2) * 64 + 1 * j.val = j.val; omega
  have h0 : ((cfg1.win 0).blk t).view.emb (ix2 q j) = ix2 R j := by
    funext a; apply Fin.ext
    match a with
    | ⟨0, _⟩ => show win1_0.index t (0 : Fin 2) * 16000 + 1 * q.val = R.val; omega
    | ⟨1, _⟩ => show win1_0.index t (1 : Fin 2) * 64 + 1 * j.val = j.val; omega
  have h1 : ((cfg1.win 1).blk t).view.emb (ix2 q (0 : Fin 1)) = ix2 R (0 : Fin 1) := by
    funext a; apply Fin.ext
    match a with
    | ⟨0, _⟩ => show win1_1.index t (0 : Fin 2) * 16000 + 1 * q.val = R.val; omega
    | ⟨1, _⟩ => show win1_1.index t (1 : Fin 2) * 1 + 1 * 0 = 0; omega
  have h2 : ∀ k : Fin 32, ((cfg1.win 2).blk t).view.emb (ix2 k j) = ix2 k j := fun k => by
    funext a; apply Fin.ext
    match a with
    | ⟨0, _⟩ => show win1_2.index t (0 : Fin 2) * 32 + 1 * k.val = k.val; omega
    | ⟨1, _⟩ => show win1_2.index t (1 : Fin 2) * 64 + 1 * j.val = j.val; omega
  have h3 : ∀ k : Fin 32, ((cfg1.win 3).blk t).view.emb (ix2 k j) = ix2 k j := fun k => by
    funext a; apply Fin.ext
    match a with
    | ⟨0, _⟩ => show win1_3.index t (0 : Fin 2) * 32 + 1 * k.val = k.val; omega
    | ⟨1, _⟩ => show win1_3.index t (1 : Fin 2) * 64 + 1 * j.val = j.val; omega
  have h4 : ∀ k : Fin 32, ((cfg1.win 4).blk t).view.emb (ix2 k j) = ix2 k j := fun k => by
    funext a; apply Fin.ext
    match a with
    | ⟨0, _⟩ => show win1_4.index t (0 : Fin 2) * 32 + 1 * k.val = k.val; omega
    | ⟨1, _⟩ => show win1_4.index t (1 : Fin 2) * 64 + 1 * j.val = j.val; omega
  have h5 : ∀ k : Fin 32, ((cfg1.win 5).blk t).view.emb (ix2 k j) = ix2 k j := fun k => by
    funext a; apply Fin.ext
    match a with
    | ⟨0, _⟩ => show win1_5.index t (0 : Fin 2) * 32 + 1 * k.val = k.val; omega
    | ⟨1, _⟩ => show win1_5.index t (1 : Fin 2) * 64 + 1 * j.val = j.val; omega
  have b0 : (iblk1 V c 0 t (ix2 q j) : EReal) = xs V c R j :=
    show V c main_arg0 (((cfg1.win 0).blk t).view.emb (ix2 q j)) = V c main_arg0 (ix2 R j) from congrArg _ h0
  have b1 : (iblk1 V c 1 t (ix2 q (0 : Fin 1)) : BitVec 32) = ts V c R :=
    show V c main_v0 (((cfg1.win 1).blk t).view.emb (ix2 q (0 : Fin 1))) = V c main_v0 (ix2 R (0 : Fin 1)) from congrArg _ h1
  have b2 : ∀ k : Fin 32, (iblk1 V c 2 t (ix2 k j) : EReal) = scaleHi V c k j := fun k =>
    show V c main_v21 (((cfg1.win 2).blk t).view.emb (ix2 k j)) = V c main_v21 (ix2 k j) from congrArg _ (h2 k)
  have b3 : ∀ k : Fin 32, (iblk1 V c 3 t (ix2 k j) : EReal) = scaleLo V c k j := fun k =>
    show V c main_v24 (((cfg1.win 3).blk t).view.emb (ix2 k j)) = V c main_v24 (ix2 k j) from congrArg _ (h3 k)
  have b4 : ∀ k : Fin 32, (iblk1 V c 4 t (ix2 k j) : EReal) = shiftHi V c k j := fun k =>
    show V c main_v25 (((cfg1.win 4).blk t).view.emb (ix2 k j)) = V c main_v25 (ix2 k j) from congrArg _ (h4 k)
  have b5 : ∀ k : Fin 32, (iblk1 V c 5 t (ix2 k j) : EReal) = shiftLo V c k j := fun k =>
    show V c main_v28 (((cfg1.win 5).blk t).view.emb (ix2 k j)) = V c main_v28 (ix2 k j) from congrArg _ (h5 k)
  show k1_pay1 (F := Ideal) (iblk1 V c 0 t) (iblk1 V c 1 t) (iblk1 V c 2 t) (iblk1 V c 3 t) (iblk1 V c 4 t) (iblk1 V c 5 t) (ix2 q j)
    = res V c (((cfg1.win 6).blk t).view.emb (ix2 q j))
  refine (pay_apply (iblk1 V c 0 t) (iblk1 V c 1 t) (iblk1 V c 2 t) (iblk1 V c 3 t) (iblk1 V c 4 t) (iblk1 V c 5 t) q j).trans ?_
  refine Eq.trans ?_ (congrArg (res V c) h6).symm
  show _ = xs V c R j
        * ((∑ k : Fin 32, Cert.Spec.oh (ts V c R) k * scaleHi V c k j)
          + (∑ k : Fin 32, Cert.Spec.oh (ts V c R) k * scaleLo V c k j))
      + ((∑ k : Fin 32, Cert.Spec.oh (ts V c R) k * shiftHi V c k j)
          + (∑ k : Fin 32, Cert.Spec.oh (ts V c R) k * shiftLo V c k j))
  refine congrArg₂ (· + ·) (congrArg₂ (· * ·) b0 (congrArg₂ (· + ·) ?_ ?_)) (congrArg₂ (· + ·) ?_ ?_)
  · exact Finset.sum_congr rfl fun k _ => congrArg₂ (· * ·) (congrArg (fun v => Cert.Spec.oh v k) b1) (b2 k)
  · exact Finset.sum_congr rfl fun k _ => congrArg₂ (· * ·) (congrArg (fun v => Cert.Spec.oh v k) b1) (b3 k)
  · exact Finset.sum_congr rfl fun k _ => congrArg₂ (· * ·) (congrArg (fun v => Cert.Spec.oh v k) b1) (b4 k)
  · exact Finset.sum_congr rfl fun k _ => congrArg₂ (· * ·) (congrArg (fun v => Cert.Spec.oh v k) b1) (b5 k)

/-- An index of the result array is in point `t`'s block iff each coordinate is in the block's range on its axis. -/
private theorem mem_blk (t : Fin cfg1.N) (i : S2000000x64.Idx) :
    i ∈ ((cfg1.win 6).blk t).view.set ↔ ∀ a : Fin 2, win1_6.index t a * S16000x64.size a ≤ (i a).val
      ∧ (i a).val < win1_6.index t a * S16000x64.size a + S16000x64.size a := by
  show i ∈ ((View.whole main_v29).slice (win1_6.rect t)).set ↔ _
  rw [View.set_slice_whole, Rect.mem_set_unit]
  exact Iff.rfl

/-- Row `r` lies in the block of point `r / 16000`, and every point writes its block back. -/
private theorem cover (i : S2000000x64.Idx) :
    ∃ t : Fin cfg1.N, (cfg1.win 6).flush t = true ∧ i ∈ ((cfg1.win 6).blk t).view.set := by
  have hi0 : (i 0).val < 2000000 := (i 0).isLt
  have hi1 : (i 1).val < 64 := (i 1).isLt
  obtain ⟨t, ht⟩ : ∃ t : Fin cfg1.N, t.val = (i 0).val / 16000 :=
    ⟨⟨(i 0).val / 16000, by have := N_1; show _ < grid1.N; omega⟩, rfl⟩
  obtain ⟨-, -, -, -, -, -, -, -, -, -, -, -, e60, e61⟩ := idx_facts t
  refine ⟨t, flush1_6 t, ?_⟩
  rw [mem_blk]
  intro a
  match a with
  | ⟨0, _⟩ =>
    show win1_6.index t (0 : Fin 2) * 16000 ≤ (i 0).val ∧ (i 0).val < win1_6.index t (0 : Fin 2) * 16000 + 16000
    omega
  | ⟨1, _⟩ =>
    show win1_6.index t (1 : Fin 2) * 64 ≤ (i 1).val ∧ (i 1).val < win1_6.index t (1 : Fin 2) * 64 + 64
    omega

/-- The result array when the region ends. -/
private theorem final (c : Dev nD) : (dat1 (F := Ideal) V c).arrAt 6 cfg1.N = res V c :=
  (dat1 (F := Ideal) V c).arrAt_eq_of_cover 6 (res V c) (fun t _ => flushed_eq V c t) cover

theorem out (c : Dev nD) (r : Fin 2000000) (j : Fin 64) :
    (dat1 (F := Ideal) V c).arrAt 6 cfg1.N (ix2 r j)
      = xs V c r j
          * (Cert.Spec.sel (ts V c r) (fun k => scaleHi V c k j) + Cert.Spec.sel (ts V c r) (fun k => scaleLo V c k j))
        + (Cert.Spec.sel (ts V c r) (fun k => shiftHi V c k j) + Cert.Spec.sel (ts V c r) (fun k => shiftLo V c k j)) :=
  (congrFun (final V c) (ix2 r j)).trans rfl

end Cert.KernelIdeal.R1

end
-- ==== Proof.HostTables.lean ====
/-
  The host operations of the kernel's program: the reshape of the type words before the first region, and, between
  the regions, the per-type tables computed from the first region's three result arrays — the two halves added, the
  count clipped at one, mean, clamped one-pass variance, reciprocal square root, scale and shift, and each table's
  residual against itself.
-/
import proofs.«405719_j88347477279067_2_alg».proof.Proof.Gen.KernelIdeal.Frame
import proofs.«405719_j88347477279067_2_alg».proof.Proof.Spec
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostV

open Cert.KernelIdeal Cert.KernelIdeal.Gen

/-! ### Each stretch of host operations, from any contents of the buffers

A buffer no operation of a stretch writes keeps its contents; a buffer one of them writes holds that operation's
function of its operands' contents. -/

section Stretches
variable (V : Valuation τ sig (Elt Ideal))

/-- Before the first region only the type words are reshaped, into a column. -/
private theorem Z_arg0 : StableHlo.after hostOps0 V (Proc.devRef .tc main_arg0) = V (Proc.devRef .tc main_arg0) := by
  dsimp only [hostOps0]
  after_results
private theorem Z_arg2 : StableHlo.after hostOps0 V (Proc.devRef .tc main_arg2) = V (Proc.devRef .tc main_arg2) := by
  dsimp only [hostOps0]
  after_results
private theorem Z_arg3 : StableHlo.after hostOps0 V (Proc.devRef .tc main_arg3) = V (Proc.devRef .tc main_arg3) := by
  dsimp only [hostOps0]
  after_results
private theorem Z_v0 : (StableHlo.after hostOps0 V (Proc.devRef .tc main_v0) : S2000000x1.Idx → BitVec 32)
    = shapeCast S2000000x1 (V (Proc.devRef .tc main_arg1)) shapeCasts_S2000000_S2000000x1 := by
  dsimp only [hostOps0]
  after_results
  rfl

/-- The first stretch between the regions: each of the three result arrays summed over its two halves, the counts
    turned into a column, and the literal one. -/
private theorem A_v2 : (StableHlo.after hostOps1 V (Proc.devRef .tc main_v2) : S32x64.Idx → EReal)
    = Host.reduceAdd (F := Ideal) (V (Proc.devRef .tc main_v1_0)) (constant (F := Ideal) S_ .f32 0x00000000#32) reducesTo_S2x32x64_S32x64_d0 h_S_ := by
  dsimp only [hostOps1]
  after_results
private theorem A_v3 : (StableHlo.after hostOps1 V (Proc.devRef .tc main_v3) : S32x64.Idx → EReal)
    = Host.reduceAdd (F := Ideal) (V (Proc.devRef .tc main_v1_1)) (constant (F := Ideal) S_ .f32 0x00000000#32) reducesTo_S2x32x64_S32x64_d0 h_S_ := by
  dsimp only [hostOps1]
  after_results
private theorem A_v5 : (StableHlo.after hostOps1 V (Proc.devRef .tc main_v5) : S32x1.Idx → EReal)
    = shapeCast S32x1 (Host.reduceAdd (F := Ideal) (V (Proc.devRef .tc main_v1_2)) (constant (F := Ideal) S_ .f32 0x00000000#32) reducesTo_S2x1x32_S1x32_d0 h_S_) shapeCasts_S1x32_S32x1 := by
  dsimp only [hostOps1]
  after_results
  rfl
private theorem A_cst2 : (StableHlo.after hostOps1 V (Proc.devRef .tc main_cst_2) : S_.Idx → EReal)
    = constant (F := Ideal) S_ .f32 0x3F800000#32 := by
  dsimp only [hostOps1]
  after_results
private theorem A_arg0 : StableHlo.after hostOps1 V (Proc.devRef .tc main_arg0) = V (Proc.devRef .tc main_arg0) := by
  dsimp only [hostOps1]
  after_results
private theorem A_v0 : StableHlo.after hostOps1 V (Proc.devRef .tc main_v0) = V (Proc.devRef .tc main_v0) := by
  dsimp only [hostOps1]
  after_results
private theorem A_arg2 : StableHlo.after hostOps1 V (Proc.devRef .tc main_arg2) = V (Proc.devRef .tc main_arg2) := by
  dsimp only [hostOps1]
  after_results
private theorem A_arg3 : StableHlo.after hostOps1 V (Proc.devRef .tc main_arg3) = V (Proc.devRef .tc main_arg3) := by
  dsimp only [hostOps1]
  after_results

/-- The second stretch: the count column clipped below at one. -/
private theorem B_v6 : (StableHlo.after hostOps1_1 V (Proc.devRef .tc main_v6) : S32x1.Idx → EReal)
    = maximumf (F := Ideal) (φ := .f32) (broadcastInDim S32x1 ![] bcast_S_S32x1 (V (Proc.devRef .tc main_cst_2) : S_.Idx → EReal)) (V (Proc.devRef .tc main_v5)) := by
  dsimp only [hostOps1_1]
  after_results
  rfl
private theorem B_v2 : StableHlo.after hostOps1_1 V (Proc.devRef .tc main_v2) = V (Proc.devRef .tc main_v2) := by
  dsimp only [hostOps1_1]
  after_results
private theorem B_v3 : StableHlo.after hostOps1_1 V (Proc.devRef .tc main_v3) = V (Proc.devRef .tc main_v3) := by
  dsimp only [hostOps1_1]
  after_results
private theorem B_arg0 : StableHlo.after hostOps1_1 V (Proc.devRef .tc main_arg0) = V (Proc.devRef .tc main_arg0) := by
  dsimp only [hostOps1_1]
  after_results
private theorem B_v0 : StableHlo.after hostOps1_1 V (Proc.devRef .tc main_v0) = V (Proc.devRef .tc main_v0) := by
  dsimp only [hostOps1_1]
  after_results
private theorem B_arg2 : StableHlo.after hostOps1_1 V (Proc.devRef .tc main_arg2) = V (Proc.devRef .tc main_arg2) := by
  dsimp only [hostOps1_1]
  after_results
private theorem B_arg3 : StableHlo.after hostOps1_1 V (Proc.devRef .tc main_arg3) = V (Proc.devRef .tc main_arg3) := by
  dsimp only [hostOps1_1]
  after_results

/-- The mean table: the sums over the clipped counts, the count column spread along the rows. -/
private def T8 (v2 : FVec Ideal S32x64 .f32) (v6 : FVec Ideal S32x1 .f32) : FVec Ideal S32x64 .f32 :=
  Host.divf v2 (broadcastInDim S32x64 ![0, 1] bcast_S32x1_S32x64_0_1 v6)
/-- The scale table: the reciprocal square root of the clamped one-pass variance plus the small constant, times the weights. -/
private def T18 (v2 v3 : FVec Ideal S32x64 .f32) (v6 : FVec Ideal S32x1 .f32) (w : FVec Ideal S32x64 .f32) : FVec Ideal S32x64 .f32 :=
  mulf (Host.rsqrt (addf (maximumf (subf (Host.divf v3 (broadcastInDim S32x64 ![0, 1] bcast_S32x1_S32x64_0_1 v6)) (mulf (T8 v2 v6) (T8 v2 v6)))
    (broadcastInDim S32x64 ![] bcast_S_S32x64 (constant (F := Ideal) S_ .f32 0x00000000#32)))
    (broadcastInDim S32x64 ![] bcast_S_S32x64 (constant (F := Ideal) S_ .f32 0x3727C5AC#32)))) w
/-- The shift table: the bias less the mean times the scale. -/
private def T20 (v2 v3 : FVec Ideal S32x64 .f32) (v6 : FVec Ideal S32x1 .f32) (w b : FVec Ideal S32x64 .f32) : FVec Ideal S32x64 .f32 :=
  subf b (mulf (T8 v2 v6) (T18 v2 v3 v6 w))

/-- The third stretch: the four tables the second region reads. A change of float format is the identity on the
    extended reals, so a table's residual is the table less itself. -/
private theorem C_v21 : (StableHlo.after hostOps1_2 V (Proc.devRef .tc main_v21) : S32x64.Idx → EReal)
    = T18 (V (Proc.devRef .tc main_v2)) (V (Proc.devRef .tc main_v3)) (V (Proc.devRef .tc main_v6)) (V (Proc.devRef .tc main_arg2)) := by
  dsimp only [hostOps1_2]
  after_results
  rfl
private theorem C_v24 : (StableHlo.after hostOps1_2 V (Proc.devRef .tc main_v24) : S32x64.Idx → EReal)
    = fun i => T18 (V (Proc.devRef .tc main_v2)) (V (Proc.devRef .tc main_v3)) (V (Proc.devRef .tc main_v6)) (V (Proc.devRef .tc main_arg2)) i
        - T18 (V (Proc.devRef .tc main_v2)) (V (Proc.devRef .tc main_v3)) (V (Proc.devRef .tc main_v6)) (V (Proc.devRef .tc main_arg2)) i := by
  dsimp only [hostOps1_2]
  after_results
  rfl
private theorem C_v25 : (StableHlo.after hostOps1_2 V (Proc.devRef .tc main_v25) : S32x64.Idx → EReal)
    = T20 (V (Proc.devRef .tc main_v2)) (V (Proc.devRef .tc main_v3)) (V (Proc.devRef .tc main_v6)) (V (Proc.devRef .tc main_arg2)) (V (Proc.devRef .tc main_arg3)) := by
  dsimp only [hostOps1_2]
  after_results_simp
  rfl
private theorem C_v28 : (StableHlo.after hostOps1_2 V (Proc.devRef .tc main_v28) : S32x64.Idx → EReal)
    = fun i => T20 (V (Proc.devRef .tc main_v2)) (V (Proc.devRef .tc main_v3)) (V (Proc.devRef .tc main_v6)) (V (Proc.devRef .tc main_arg2)) (V (Proc.devRef .tc main_arg3)) i
        - T20 (V (Proc.devRef .tc main_v2)) (V (Proc.devRef .tc main_v3)) (V (Proc.devRef .tc main_v6)) (V (Proc.devRef .tc main_arg2)) (V (Proc.devRef .tc main_arg3)) i := by
  dsimp only [hostOps1_2]
  after_results_simp
  rfl
private theorem C_arg0 : StableHlo.after hostOps1_2 V (Proc.devRef .tc main_arg0) = V (Proc.devRef .tc main_arg0) := by
  dsimp only [hostOps1_2]
  after_results
private theorem C_v0 : StableHlo.after hostOps1_2 V (Proc.devRef .tc main_v0) = V (Proc.devRef .tc main_v0) := by
  dsimp only [hostOps1_2]
  after_results

end Stretches

/-! ### The tables read entry by entry -/

private theorem red3 : S2x32x64.Reduces [0] S32x64 := by decide
private theorem red3' : S2x1x32.Reduces [0] S1x32 := by decide

/-- The index a sum over the leading axis visits: the half in front of the kept coordinates. -/
private theorem lift3 (k : Fin 32) (j : Fin 64) (κ : Fin 2) : red3.lift (ix2 k j) κ = ix3 κ k j := by
  funext d
  match d with
  | ⟨0, _⟩ => rfl
  | ⟨1, _⟩ => rfl
  | ⟨2, _⟩ => rfl
private theorem lift3' (k : Fin 32) (κ : Fin 2) : red3'.lift (ix2 (0 : Fin 1) k) κ = ix3 κ (0 : Fin 1) k := by
  funext d
  match d with
  | ⟨0, _⟩ => rfl
  | ⟨1, _⟩ => rfl
  | ⟨2, _⟩ => rfl

/-- The sum over the leading axis of a [2,32,64] array from the zero word: the two halves added. -/
private theorem halves (x : FVec Ideal S2x32x64 .f32) (k : Fin 32) (j : Fin 64) :
    Host.reduceAdd (F := Ideal) x (constant (F := Ideal) S_ .f32 0x00000000#32) reducesTo_S2x32x64_S32x64_d0 h_S_ (ix2 k j)
      = ∑ κ : Fin 2, x (ix3 κ k j) := by
  rw [hostReduceAdd_apply, Ideal.hostReduceAdd_single reducesTo_S2x32x64_S32x64_d0 red3]
  show Ideal.ofBits .f32 0x00000000#32 + ∑ κ : Fin 2, _ = _
  rw [Ideal.ofBits_zero_f32, zero_add]
  exact Finset.sum_congr rfl fun κ _ => by rw [lift3]

/-- The same of the [2,1,32] counts, read as a column: entry (k, 0) of the column is entry (0, k) of the row. -/
private theorem halves' (x : FVec Ideal S2x1x32 .f32) (k : Fin 32) :
    shapeCast S32x1 (Host.reduceAdd (F := Ideal) x (constant (F := Ideal) S_ .f32 0x00000000#32) reducesTo_S2x1x32_S1x32_d0 h_S_)
        shapeCasts_S1x32_S32x1 (ix2 k (0 : Fin 1))
      = ∑ κ : Fin 2, x (ix3 κ (0 : Fin 1) k) := by
  refine (shapeCast_apply _ _ (ix2 k (0 : Fin 1)) (ix2 (0 : Fin 1) k) ?_).trans ?_
  · rw [Shape.rowMajor_val_two, Shape.rowMajor_val_two]
    show 0 * 32 + k.val = k.val * 1 + 0
    omega
  rw [hostReduceAdd_apply, Ideal.hostReduceAdd_single reducesTo_S2x1x32_S1x32_d0 red3']
  show Ideal.ofBits .f32 0x00000000#32 + ∑ κ : Fin 2, _ = _
  rw [Ideal.ofBits_zero_f32, zero_add]
  exact Finset.sum_congr rfl fun κ _ => by rw [lift3']

/-- A column spread along the rows reads the column's entry of the same row. -/
private theorem bc_col (x : FVec Ideal S32x1 .f32) (k : Fin 32) (j : Fin 64) :
    broadcastInDim S32x64 ![0, 1] bcast_S32x1_S32x64_0_1 x (ix2 k j) = x (ix2 k (0 : Fin 1)) :=
  broadcastInDim_apply _ _ x _ (ix2 k (0 : Fin 1)) (fun a => by
    match a with
    | ⟨0, _⟩ => rfl
    | ⟨1, _⟩ => rfl)

private theorem T8_at (v2 : FVec Ideal S32x64 .f32) (v6 : FVec Ideal S32x1 .f32) (k : Fin 32) (j : Fin 64)
    (s n : EReal) (hs : v2 (ix2 k j) = s) (hn : v6 (ix2 k (0 : Fin 1)) = Cert.Spec.cl n) :
    T8 v2 v6 (ix2 k j) = Cert.Spec.mean s n := by
  show Ideal.div (v2 (ix2 k j)) (broadcastInDim S32x64 ![0, 1] bcast_S32x1_S32x64_0_1 v6 (ix2 k j)) = _
  rw [bc_col, hs, hn]
  rfl

private theorem T18_at (v2 v3 : FVec Ideal S32x64 .f32) (v6 : FVec Ideal S32x1 .f32) (w : FVec Ideal S32x64 .f32)
    (k : Fin 32) (j : Fin 64) (s q n ww : EReal) (hs : v2 (ix2 k j) = s) (hq : v3 (ix2 k j) = q)
    (hn : v6 (ix2 k (0 : Fin 1)) = Cert.Spec.cl n) (hw : w (ix2 k j) = ww) :
    T18 v2 v3 v6 w (ix2 k j) = Cert.Spec.scaleK s q n ww := by
  show Ideal.rsqrt (max (Ideal.div (v3 (ix2 k j)) (broadcastInDim S32x64 ![0, 1] bcast_S32x1_S32x64_0_1 v6 (ix2 k j))
        - T8 v2 v6 (ix2 k j) * T8 v2 v6 (ix2 k j))
      (broadcastInDim S32x64 ![] bcast_S_S32x64 (constant (F := Ideal) S_ .f32 0x00000000#32) (ix2 k j))
      + broadcastInDim S32x64 ![] bcast_S_S32x64 (constant (F := Ideal) S_ .f32 0x3727C5AC#32) (ix2 k j)) * w (ix2 k j) = _
  rw [T8_at v2 v6 k j s n hs hn, bc_col, hq, hn, hw, broadcastInDim_scalar_apply, broadcastInDim_scalar_apply]
  rfl

private theorem T20_at (v2 v3 : FVec Ideal S32x64 .f32) (v6 : FVec Ideal S32x1 .f32) (w b : FVec Ideal S32x64 .f32)
    (k : Fin 32) (j : Fin 64) (s q n ww bb : EReal) (hs : v2 (ix2 k j) = s) (hq : v3 (ix2 k j) = q)
    (hn : v6 (ix2 k (0 : Fin 1)) = Cert.Spec.cl n) (hw : w (ix2 k j) = ww) (hb : b (ix2 k j) = bb) :
    T20 v2 v3 v6 w b (ix2 k j) = Cert.Spec.shiftK s q n ww bb := by
  show b (ix2 k j) - T8 v2 v6 (ix2 k j) * T18 v2 v3 v6 w (ix2 k j) = _
  rw [T8_at v2 v6 k j s n hs hn, T18_at v2 v3 v6 w k j s q n ww hs hq hn hw, hb]
  rfl

/-! ### The two stretches before the tables, composed -/

section Composed
variable (V : Valuation τ sig (Elt Ideal))

/-- The three arrays the first stretch sums, entry by entry. -/
private abbrev r1 : Fin 2 → Fin 32 → Fin 64 → EReal := fun κ k j => V (Proc.devRef .tc main_v1_0) (ix3 κ k j)
private abbrev r2 : Fin 2 → Fin 32 → Fin 64 → EReal := fun κ k j => V (Proc.devRef .tc main_v1_1) (ix3 κ k j)
private abbrev r3 : Fin 2 → Fin 32 → EReal := fun κ k => V (Proc.devRef .tc main_v1_2) (ix3 κ 0 k)

private theorem AB_v2 (k : Fin 32) (j : Fin 64) :
    (StableHlo.after hostOps1_1 (StableHlo.after hostOps1 V) (Proc.devRef .tc main_v2) : S32x64.Idx → EReal) (ix2 k j)
      = ∑ κ : Fin 2, r1 V κ k j := by
  rw [B_v2, A_v2, halves]
private theorem AB_v3 (k : Fin 32) (j : Fin 64) :
    (StableHlo.after hostOps1_1 (StableHlo.after hostOps1 V) (Proc.devRef .tc main_v3) : S32x64.Idx → EReal) (ix2 k j)
      = ∑ κ : Fin 2, r2 V κ k j := by
  rw [B_v3, A_v3, halves]
private theorem AB_v6 (k : Fin 32) :
    (StableHlo.after hostOps1_1 (StableHlo.after hostOps1 V) (Proc.devRef .tc main_v6) : S32x1.Idx → EReal) (ix2 k (0 : Fin 1))
      = Cert.Spec.cl (∑ κ : Fin 2, r3 V κ k) := by
  rw [B_v6, A_cst2, A_v5, maximumf_apply, broadcastInDim_scalar_apply, halves']
  rfl
private theorem AB_arg2 : StableHlo.after hostOps1_1 (StableHlo.after hostOps1 V) (Proc.devRef .tc main_arg2) = V (Proc.devRef .tc main_arg2) := by
  rw [B_arg2, A_arg2]
private theorem AB_arg3 : StableHlo.after hostOps1_1 (StableHlo.after hostOps1 V) (Proc.devRef .tc main_arg3) = V (Proc.devRef .tc main_arg3) := by
  rw [B_arg3, A_arg3]

end Composed

variable (m : (ℓ : Loc nD τ sig) → Buf (Elt Ideal) ℓ) (ρ : Dev nD → PrngReg)

/-- The argument arrays as launched. -/
abbrev ax (c : Dev nD) : Fin 2000000 → Fin 64 → EReal := fun r j => m ((c : Thread nD τ).loc main_arg0) (ix2 r j)
abbrev at_ (c : Dev nD) : Fin 2000000 → BitVec 32 := fun r => m ((c : Thread nD τ).loc main_arg1) (ix1 r)
abbrev aw (c : Dev nD) : Fin 32 → Fin 64 → EReal := fun k j => m ((c : Thread nD τ).loc main_arg2) (ix2 k j)
abbrev ab (c : Dev nD) : Fin 32 → Fin 64 → EReal := fun k j => m ((c : Thread nD τ).loc main_arg3) (ix2 k j)

/-- The first region's three result arrays as it leaves them. -/
abbrev a1 (c : Dev nD) : Fin 2 → Fin 32 → Fin 64 → EReal := fun κ k j => W2 m ρ c (Proc.devRef .tc main_v1_0) (ix3 κ k j)
abbrev a2 (c : Dev nD) : Fin 2 → Fin 32 → Fin 64 → EReal := fun κ k j => W2 m ρ c (Proc.devRef .tc main_v1_1) (ix3 κ k j)
abbrev a3 (c : Dev nD) : Fin 2 → Fin 32 → EReal := fun κ k => W2 m ρ c (Proc.devRef .tc main_v1_2) (ix3 κ 0 k)

/-! ### At the first region's entry -/

/-- The rows are as launched: the reshape writes only the type words' column. -/
private theorem W1_arg0 (c : Dev nD) : W1 m ρ c (Proc.devRef .tc main_arg0) = m ((c : Thread nD τ).loc main_arg0) :=
  Z_arg0 (W0 m ρ c)
private theorem W1_arg2 (c : Dev nD) : W1 m ρ c (Proc.devRef .tc main_arg2) = m ((c : Thread nD τ).loc main_arg2) :=
  Z_arg2 (W0 m ρ c)
private theorem W1_arg3 (c : Dev nD) : W1 m ρ c (Proc.devRef .tc main_arg3) = m ((c : Thread nD τ).loc main_arg3) :=
  Z_arg3 (W0 m ρ c)

/-- Entry (r, 0) of the type words' column is word r of the launched vector: the same row-major position. -/
private theorem W1_v0_at (c : Dev nD) (r : Fin 2000000) :
    (W1 m ρ c (Proc.devRef .tc main_v0) : S2000000x1.Idx → BitVec 32) (ix2 r (0 : Fin 1)) = at_ m c r := by
  refine (congrFun (Z_v0 (W0 m ρ c)) (ix2 r (0 : Fin 1))).trans ?_
  refine shapeCast_apply _ _ _ (ix1 r) ?_
  rw [Shape.rowMajor_val_one, Shape.rowMajor_val_two]
  show r.val = r.val * 1 + 0
  omega

theorem x_entry0 (c : Dev nD) (r : Fin 2000000) (j : Fin 64) :
    (V1 m ρ c main_arg0 (ix2 r j) : EReal) = ax m c r j :=
  congrFun (W1_arg0 m ρ c) (ix2 r j)

theorem types_entry0 (c : Dev nD) (r : Fin 2000000) :
    (V1 m ρ c main_v0 (ix2 r 0) : BitVec 32) = at_ m c r :=
  W1_v0_at m ρ c r

/-! ### At the second region's entry -/

/-- The rows and the type words' column are input arrays of the first region, which leaves them as entered, and no
    host operation between the regions writes them. -/
private theorem W5_arg0 (c : Dev nD) : W5 m ρ c (Proc.devRef .tc main_arg0) = W1 m ρ c (Proc.devRef .tc main_arg0) :=
  calc W5 m ρ c (Proc.devRef .tc main_arg0)
    _ = W4 m ρ c (Proc.devRef .tc main_arg0) := C_arg0 (W4 m ρ c)
    _ = W3 m ρ c (Proc.devRef .tc main_arg0) := B_arg0 (W3 m ρ c)
    _ = W2 m ρ c (Proc.devRef .tc main_arg0) := A_arg0 (W2 m ρ c)
    _ = W1 m ρ c (Proc.devRef .tc main_arg0) := (W2_arr m ρ c 0).trans (((dat0 (V1 m ρ) c).arrAt_in 0 rfl _).trans (A_eq0 (V1 m ρ) c 0))
private theorem W5_v0 (c : Dev nD) : W5 m ρ c (Proc.devRef .tc main_v0) = W1 m ρ c (Proc.devRef .tc main_v0) :=
  calc W5 m ρ c (Proc.devRef .tc main_v0)
    _ = W4 m ρ c (Proc.devRef .tc main_v0) := C_v0 (W4 m ρ c)
    _ = W3 m ρ c (Proc.devRef .tc main_v0) := B_v0 (W3 m ρ c)
    _ = W2 m ρ c (Proc.devRef .tc main_v0) := A_v0 (W2 m ρ c)
    _ = W1 m ρ c (Proc.devRef .tc main_v0) := (W2_arr m ρ c 1).trans (((dat0 (V1 m ρ) c).arrAt_in 1 rfl _).trans (A_eq0 (V1 m ρ) c 1))

theorem x_entry1 (c : Dev nD) (r : Fin 2000000) (j : Fin 64) :
    (V5 m ρ c main_arg0 (ix2 r j) : EReal) = ax m c r j :=
  congrFun ((W5_arg0 m ρ c).trans (W1_arg0 m ρ c)) (ix2 r j)

theorem types_entry1 (c : Dev nD) (r : Fin 2000000) :
    (V5 m ρ c main_v0 (ix2 r 0) : BitVec 32) = at_ m c r :=
  (congrFun (W5_v0 m ρ c) (ix2 r (0 : Fin 1))).trans (W1_v0_at m ρ c r)

/-- The weights and the biases reach the tables' stretch as launched: the first region does not stage them. -/
private theorem W4_arg2_at (c : Dev nD) (k : Fin 32) (j : Fin 64) :
    (W4 m ρ c (Proc.devRef .tc main_arg2) : S32x64.Idx → EReal) (ix2 k j) = aw m c k j :=
  congrFun (((AB_arg2 (W2 m ρ c)).trans (W2_of_ne m ρ c main_arg2 (by decide))).trans (W1_arg2 m ρ c)) (ix2 k j)
private theorem W4_arg3_at (c : Dev nD) (k : Fin 32) (j : Fin 64) :
    (W4 m ρ c (Proc.devRef .tc main_arg3) : S32x64.Idx → EReal) (ix2 k j) = ab m c k j :=
  congrFun (((AB_arg3 (W2 m ρ c)).trans (W2_of_ne m ρ c main_arg3 (by decide))).trans (W1_arg3 m ρ c)) (ix2 k j)

/-- The scale table from the two halves' sums. -/
abbrev scale (c : Dev nD) (k : Fin 32) (j : Fin 64) : EReal :=
  Cert.Spec.scaleK (∑ κ : Fin 2, a1 m ρ c κ k j) (∑ κ : Fin 2, a2 m ρ c κ k j) (∑ κ : Fin 2, a3 m ρ c κ k) (aw m c k j)
/-- The shift table. -/
abbrev shift (c : Dev nD) (k : Fin 32) (j : Fin 64) : EReal :=
  Cert.Spec.shiftK (∑ κ : Fin 2, a1 m ρ c κ k j) (∑ κ : Fin 2, a2 m ρ c κ k j) (∑ κ : Fin 2, a3 m ρ c κ k) (aw m c k j) (ab m c k j)

private theorem scale_at (c : Dev nD) (k : Fin 32) (j : Fin 64) :
    T18 (W4 m ρ c (Proc.devRef .tc main_v2)) (W4 m ρ c (Proc.devRef .tc main_v3)) (W4 m ρ c (Proc.devRef .tc main_v6))
        (W4 m ρ c (Proc.devRef .tc main_arg2)) (ix2 k j) = scale m ρ c k j :=
  T18_at _ _ _ _ k j _ _ _ _ (AB_v2 (W2 m ρ c) k j) (AB_v3 (W2 m ρ c) k j) (AB_v6 (W2 m ρ c) k) (W4_arg2_at m ρ c k j)

private theorem shift_at (c : Dev nD) (k : Fin 32) (j : Fin 64) :
    T20 (W4 m ρ c (Proc.devRef .tc main_v2)) (W4 m ρ c (Proc.devRef .tc main_v3)) (W4 m ρ c (Proc.devRef .tc main_v6))
        (W4 m ρ c (Proc.devRef .tc main_arg2)) (W4 m ρ c (Proc.devRef .tc main_arg3)) (ix2 k j) = shift m ρ c k j :=
  T20_at _ _ _ _ _ k j _ _ _ _ _ (AB_v2 (W2 m ρ c) k j) (AB_v3 (W2 m ρ c) k j) (AB_v6 (W2 m ρ c) k) (W4_arg2_at m ρ c k j)
    (W4_arg3_at m ρ c k j)

theorem scale_hi (c : Dev nD) (k : Fin 32) (j : Fin 64) :
    (V5 m ρ c main_v21 (ix2 k j) : EReal) = scale m ρ c k j :=
  (congrFun (C_v21 (W4 m ρ c)) (ix2 k j)).trans (scale_at m ρ c k j)

theorem scale_lo (c : Dev nD) (k : Fin 32) (j : Fin 64) :
    (V5 m ρ c main_v24 (ix2 k j) : EReal) = scale m ρ c k j - scale m ρ c k j := by
  refine (congrFun (C_v24 (W4 m ρ c)) (ix2 k j)).trans ?_
  show T18 _ _ _ _ (ix2 k j) - T18 _ _ _ _ (ix2 k j) = _
  rw [scale_at m ρ c k j]

theorem shift_hi (c : Dev nD) (k : Fin 32) (j : Fin 64) :
    (V5 m ρ c main_v25 (ix2 k j) : EReal) = shift m ρ c k j :=
  (congrFun (C_v25 (W4 m ρ c)) (ix2 k j)).trans (shift_at m ρ c k j)

theorem shift_lo (c : Dev nD) (k : Fin 32) (j : Fin 64) :
    (V5 m ρ c main_v28 (ix2 k j) : EReal) = shift m ρ c k j - shift m ρ c k j := by
  refine (congrFun (C_v28 (W4 m ρ c)) (ix2 k j)).trans ?_
  show T20 _ _ _ _ _ (ix2 k j) - T20 _ _ _ _ _ (ix2 k j) = _
  rw [shift_at m ρ c k j]

end Cert.KernelIdeal.HostV

end
-- ==== Proof.Bridge.lean ====
/-
  The kernel's result array, entry by entry, as the specification's `outK` of the argument arrays: the second
  region's result is x · (hi + lo of the scale) + (hi + lo of the shift) selected by the row's type word; the four
  tables are the host's scale and shift of the first region's sums and their residuals; the first region's sums are
  the specification's per-half sums of the rows as launched.
-/
import proofs.«405719_j88347477279067_2_alg».proof.Proof.Region0
import proofs.«405719_j88347477279067_2_alg».proof.Proof.Region1
import proofs.«405719_j88347477279067_2_alg».proof.Proof.HostTables
import proofs.«405719_j88347477279067_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.KernelIdeal.HostV

variable (m : (ℓ : Loc nD τ sig) → Buf (Elt Ideal) ℓ) (ρ : Dev nD → PrngReg)

/-- The first region's sums of the rows, squares and counts, in the arrays it leaves. -/
theorem a1_eq (c : Dev nD) (κ : Fin 2) (k : Fin 32) (j : Fin 64) :
    a1 m ρ c κ k j = Cert.Spec.hsum1 (ax m c) (at_ m c) κ k j := by
  have h := Cert.KernelIdeal.R0.sum1 (V1 m ρ) c κ k j
  have e1 : Cert.KernelIdeal.R0.xs (V1 m ρ) c = ax m c := funext fun r => funext fun j => x_entry0 m ρ c r j
  have e2 : Cert.KernelIdeal.R0.ts (V1 m ρ) c = at_ m c := funext fun r => types_entry0 m ρ c r
  rw [e1, e2] at h
  rw [← h]
  exact congrFun (W2_arr m ρ c 2) (ix3 κ k j)

theorem a2_eq (c : Dev nD) (κ : Fin 2) (k : Fin 32) (j : Fin 64) :
    a2 m ρ c κ k j = Cert.Spec.hsum2 (ax m c) (at_ m c) κ k j := by
  have h := Cert.KernelIdeal.R0.sum2 (V1 m ρ) c κ k j
  have e1 : Cert.KernelIdeal.R0.xs (V1 m ρ) c = ax m c := funext fun r => funext fun j => x_entry0 m ρ c r j
  have e2 : Cert.KernelIdeal.R0.ts (V1 m ρ) c = at_ m c := funext fun r => types_entry0 m ρ c r
  rw [e1, e2] at h
  rw [← h]
  exact congrFun (W2_arr m ρ c 3) (ix3 κ k j)

theorem a3_eq (c : Dev nD) (κ : Fin 2) (k : Fin 32) :
    a3 m ρ c κ k = Cert.Spec.hcnt (at_ m c) κ k := by
  have h := Cert.KernelIdeal.R0.cnt (V1 m ρ) c κ k
  have e2 : Cert.KernelIdeal.R0.ts (V1 m ρ) c = at_ m c := funext fun r => types_entry0 m ρ c r
  rw [e2] at h
  rw [← h]
  exact congrFun (W2_arr m ρ c 4) (ix3 κ 0 k)

/-- The host's scale and shift tables are the specification's. -/
theorem scale_eq (c : Dev nD) (k : Fin 32) (j : Fin 64) :
    scale m ρ c k j = Cert.Spec.kscale (ax m c) (at_ m c) (aw m c) k j := by
  have h1 : (∑ κ : Fin 2, a1 m ρ c κ k j) = ∑ κ : Fin 2, Cert.Spec.hsum1 (ax m c) (at_ m c) κ k j :=
    Finset.sum_congr rfl fun κ _ => a1_eq m ρ c κ k j
  have h2 : (∑ κ : Fin 2, a2 m ρ c κ k j) = ∑ κ : Fin 2, Cert.Spec.hsum2 (ax m c) (at_ m c) κ k j :=
    Finset.sum_congr rfl fun κ _ => a2_eq m ρ c κ k j
  have h3 : (∑ κ : Fin 2, a3 m ρ c κ k) = ∑ κ : Fin 2, Cert.Spec.hcnt (at_ m c) κ k :=
    Finset.sum_congr rfl fun κ _ => a3_eq m ρ c κ k
  show Cert.Spec.scaleK (∑ κ : Fin 2, a1 m ρ c κ k j) (∑ κ : Fin 2, a2 m ρ c κ k j) (∑ κ : Fin 2, a3 m ρ c κ k) (aw m c k j) = _
  rw [h1, h2, h3]
  rfl

theorem shift_eq (c : Dev nD) (k : Fin 32) (j : Fin 64) :
    shift m ρ c k j = Cert.Spec.kshift (ax m c) (at_ m c) (aw m c) (ab m c) k j := by
  have h1 : (∑ κ : Fin 2, a1 m ρ c κ k j) = ∑ κ : Fin 2, Cert.Spec.hsum1 (ax m c) (at_ m c) κ k j :=
    Finset.sum_congr rfl fun κ _ => a1_eq m ρ c κ k j
  have h2 : (∑ κ : Fin 2, a2 m ρ c κ k j) = ∑ κ : Fin 2, Cert.Spec.hsum2 (ax m c) (at_ m c) κ k j :=
    Finset.sum_congr rfl fun κ _ => a2_eq m ρ c κ k j
  have h3 : (∑ κ : Fin 2, a3 m ρ c κ k) = ∑ κ : Fin 2, Cert.Spec.hcnt (at_ m c) κ k :=
    Finset.sum_congr rfl fun κ _ => a3_eq m ρ c κ k
  show Cert.Spec.shiftK (∑ κ : Fin 2, a1 m ρ c κ k j) (∑ κ : Fin 2, a2 m ρ c κ k j) (∑ κ : Fin 2, a3 m ρ c κ k) (aw m c k j) (ab m c k j) = _
  rw [h1, h2, h3]
  rfl

/-- The kernel's result array at row `r`, column `j`. -/
theorem result_apply (c : Dev nD) (r : Fin 2000000) (j : Fin 64) :
    (W6 m ρ c (Proc.devRef .tc main_v29) (ix2 r j) : EReal)
      = Cert.Spec.outK (ax m c) (at_ m c) (aw m c) (ab m c) r j := by
  have h := Cert.KernelIdeal.R1.out (V5 m ρ) c r j
  have ex : Cert.KernelIdeal.R1.xs (V5 m ρ) c r j = ax m c r j := x_entry1 m ρ c r j
  have et : Cert.KernelIdeal.R1.ts (V5 m ρ) c r = at_ m c r := types_entry1 m ρ c r
  have e21 : (fun k => Cert.KernelIdeal.R1.scaleHi (V5 m ρ) c k j) = fun k => Cert.Spec.kscale (ax m c) (at_ m c) (aw m c) k j :=
    funext fun k => (scale_hi m ρ c k j).trans (scale_eq m ρ c k j)
  have e24 : (fun k => Cert.KernelIdeal.R1.scaleLo (V5 m ρ) c k j)
      = fun k => Cert.Spec.kscale (ax m c) (at_ m c) (aw m c) k j - Cert.Spec.kscale (ax m c) (at_ m c) (aw m c) k j :=
    funext fun k => (scale_lo m ρ c k j).trans (by rw [scale_eq])
  have e25 : (fun k => Cert.KernelIdeal.R1.shiftHi (V5 m ρ) c k j) = fun k => Cert.Spec.kshift (ax m c) (at_ m c) (aw m c) (ab m c) k j :=
    funext fun k => (shift_hi m ρ c k j).trans (shift_eq m ρ c k j)
  have e28 : (fun k => Cert.KernelIdeal.R1.shiftLo (V5 m ρ) c k j)
      = fun k => Cert.Spec.kshift (ax m c) (at_ m c) (aw m c) (ab m c) k j - Cert.Spec.kshift (ax m c) (at_ m c) (aw m c) (ab m c) k j :=
    funext fun k => (shift_lo m ρ c k j).trans (by rw [shift_eq])
  rw [ex, et, e21, e24, e25, e28] at h
  unfold Cert.Spec.outK
  rw [← h]
  exact congrFun (W6_arr m ρ c 6) (ix2 r j)

end Cert.KernelIdeal.Bridge

end
-- ==== Proof.RefValue.lean ====
/-
  The reference program's result, read at a row and a column: the per-type sums are the accumulating scatters of the
  rows (an update lands on the type its word names, and nowhere when the word names none), the per-row tables are
  gathers at the row's type word, wrapped once when negative and clamped into the table.
-/
import proofs.«405719_j88347477279067_2_alg».proof.Proof.Gen.ReferenceIdeal.Read
import proofs.«405719_j88347477279067_2_alg».proof.Proof.Spec
import Idealize.ShloMosaic.Lib.Pipeline.Value
import Idealize.ShloMosaic.PureOps.Ideal.Laws
import Idealize.ShloMosaic.Lib.ValueIdx
import Idealize.ShloMosaic.Lib.ValueIdxRank1
import Idealize.ShloMosaic.Lib.StableHlo.Predicate

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefV

open Cert.ReferenceIdeal Cert.ReferenceIdeal.Gen

private abbrev sc2 : ScatterDims S32x64 S2000000x1 S2000000x64 := scatter_S32x64_S2000000x1_S2000000x64_1_0_0_1
private abbrev sc1 : ScatterDims S32 S2000000x1 S2000000 := scatter_S32_S2000000x1_S2000000_n_0_0_1
private abbrev ga : GatherDims S32x64 S2000000x1 S2000000x64 := gather_S32x64_S2000000x1_S2000000x64_1_0_n_n_0_1_164

private theorem sc2_siIdx (u : S2000000x64.Idx) (c : Fin sc2.scatterDimsToOperandDims.length) :
    sc2.siIdx u c = ix2 (u 0) (0 : Fin 1) := by
  funext b
  match b with
  | ⟨0, _⟩ => rfl
  | ⟨1, _⟩ => exact Fin.ext (show c.val = 0 from Nat.lt_one_iff.mp c.isLt)

private theorem sc2_start0 (u : S2000000x64.Idx) (idx : IVec S2000000x1 32) :
    sc2.start u idx 0 = (idx (ix2 (u 0) (0 : Fin 1))).toInt := by
  unfold ScatterDims.start
  rw [dif_pos (show (0 : Fin 2) ∈ sc2.scatterDimsToOperandDims from List.mem_singleton.mpr rfl), sc2_siIdx]
  rfl

private theorem sc2_start1 (u : S2000000x64.Idx) (idx : IVec S2000000x1 32) :
    sc2.start u idx 1 = 0 := by
  unfold ScatterDims.start
  rw [dif_neg (show ¬ (1 : Fin 2) ∈ sc2.scatterDimsToOperandDims by decide)]

private theorem sc2_window0 (u : S2000000x64.Idx) : sc2.window u 0 = 0 := by
  unfold ScatterDims.window
  rw [dif_neg (show ¬ (0 : Fin 2) ∈ sc2.sKept by decide)]

private theorem sc2_window1 (u : S2000000x64.Idx) : sc2.window u 1 = (u 1).val := by
  unfold ScatterDims.window
  rw [dif_pos (show (1 : Fin 2) ∈ sc2.sKept by decide)]
  rfl

private theorem toInt_eq_iff (v : BitVec 32) (k : Fin 32) : v.toInt = (k.val : Int) ↔ v = BitVec.ofNat 32 k.val := by
  have hk := k.isLt
  have hv := v.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    rw [if_pos (by omega)]

private theorem sc2_resultIdx (u : S2000000x64.Idx) (idx : IVec S2000000x1 32) (k : Fin 32) (j : Fin 64) :
    sc2.resultIdx? u idx = some (ix2 k j) ↔ (idx (ix2 (u 0) (0 : Fin 1)) = BitVec.ofNat 32 k.val ∧ u 1 = j) := by
  have hk := k.isLt
  have hu1 : (u 1).val < 64 := (u 1).isLt
  unfold ScatterDims.resultIdx?
  split
  · rename_i h
    rw [Option.some.injEq]
    have h0 := h 0
    rw [sc2_start0, sc2_window0] at h0
    constructor
    · intro e
      have e0 := congrArg (fun f => (f 0).val) e
      have e1 := congrArg (fun f => (f 1).val) e
      simp only [sc2_start0, sc2_window0, sc2_start1, sc2_window1] at e0 e1
      refine ⟨(toInt_eq_iff _ k).mp ?_, Fin.ext ?_⟩
      · have : ((ix2 k j : S32x64.Idx) 0).val = k.val := rfl
        rw [this] at e0
        omega
      · have : ((ix2 k j : S32x64.Idx) 1).val = j.val := rfl
        rw [this] at e1
        omega
    · rintro ⟨e0, e1⟩
      have e0' := (toInt_eq_iff _ k).mpr e0
      funext a
      match a with
      | ⟨0, _⟩ =>
        apply Fin.ext
        show (sc2.start u idx 0 + (sc2.window u 0 : Int)).toNat = k.val
        rw [sc2_start0, sc2_window0, e0']; simp
      | ⟨1, _⟩ =>
        apply Fin.ext
        show (sc2.start u idx 1 + (sc2.window u 1 : Int)).toNat = j.val
        rw [sc2_start1, sc2_window1, ← e1]; simp
  · rename_i h
    constructor
    · intro e; exact absurd e (by simp)
    · rintro ⟨e0, e1⟩
      exfalso; apply h
      have e0' := (toInt_eq_iff _ k).mpr e0
      intro a
      match a with
      | ⟨0, _⟩ =>
        show 0 ≤ sc2.start u idx 0 + (sc2.window u 0 : Int) ∧ sc2.start u idx 0 + (sc2.window u 0 : Int) < 32
        rw [sc2_start0, sc2_window0, e0']; omega
      | ⟨1, _⟩ =>
        show 0 ≤ sc2.start u idx 1 + (sc2.window u 1 : Int) ∧ sc2.start u idx 1 + (sc2.window u 1 : Int) < 64
        rw [sc2_start1, sc2_window1]; omega

private theorem sc2_resultIdx' (r : Fin 2000000) (c : Fin 64) (idx : IVec S2000000x1 32) (k : Fin 32) (j : Fin 64) :
    sc2.resultIdx? (ix2 r c) idx = some (ix2 k j) ↔ (idx (ix2 r (0 : Fin 1)) = BitVec.ofNat 32 k.val ∧ c = j) :=
  sc2_resultIdx (ix2 r c) idx k j

/-- The accumulating scatter of rows into the [32,64] table, read at (k, j). -/
private theorem sc2_apply (x : S32x64.Idx → EReal) (idx : IVec S2000000x1 32) (upd : S2000000x64.Idx → EReal) (k : Fin 32) (j : Fin 64) :
    Ideal.hostScatterAdd sc2 x idx upd (ix2 k j)
      = x (ix2 k j) + ∑ r : Fin 2000000, Cert.Spec.oh (idx (ix2 r (0 : Fin 1))) k * upd (ix2 r j) := by
  unfold Ideal.hostScatterAdd
  refine congrArg (fun z => x (ix2 k j) + z) ?_
  rw [Finset.sum_filter, sum_idx2]
  refine Finset.sum_congr rfl fun r _ => ?_
  simp only [sc2_resultIdx']
  unfold Cert.Spec.oh
  by_cases h : idx (ix2 r (0 : Fin 1)) = BitVec.ofNat 32 k.val
  · rw [if_pos h, one_mul]
    simp only [h, true_and]
    rw [Finset.sum_ite_eq' Finset.univ j (fun c => upd (ix2 r c)), if_pos (Finset.mem_univ j)]
  · rw [if_neg h, zero_mul]
    refine Finset.sum_eq_zero fun c _ => ?_
    rw [if_neg (fun e => h e.1)]

/-! ### The scatter of ones into the [32] table -/

private theorem sc1_siIdx (u : S2000000.Idx) (c : Fin sc1.scatterDimsToOperandDims.length) :
    sc1.siIdx u c = ix2 (u 0) (0 : Fin 1) := by
  funext b
  match b with
  | ⟨0, _⟩ => rfl
  | ⟨1, _⟩ => exact Fin.ext (show c.val = 0 from Nat.lt_one_iff.mp c.isLt)

private theorem sc1_start0 (u : S2000000.Idx) (idx : IVec S2000000x1 32) :
    sc1.start u idx 0 = (idx (ix2 (u 0) (0 : Fin 1))).toInt := by
  unfold ScatterDims.start
  rw [dif_pos (show (0 : Fin 1) ∈ sc1.scatterDimsToOperandDims from List.mem_singleton.mpr rfl), sc1_siIdx]
  rfl

private theorem sc1_window0 (u : S2000000.Idx) : sc1.window u 0 = 0 := by
  unfold ScatterDims.window
  rw [dif_neg (show ¬ (0 : Fin 1) ∈ sc1.sKept by decide)]

private theorem sc1_resultIdx (u : S2000000.Idx) (idx : IVec S2000000x1 32) (k : Fin 32) :
    sc1.resultIdx? u idx = some (ix1 k) ↔ idx (ix2 (u 0) (0 : Fin 1)) = BitVec.ofNat 32 k.val := by
  have hk := k.isLt
  unfold ScatterDims.resultIdx?
  split
  · rename_i h
    rw [Option.some.injEq]
    have h0 := h 0
    rw [sc1_start0, sc1_window0] at h0
    constructor
    · intro e
      have e0 := congrArg (fun f => (f 0).val) e
      simp only [sc1_start0, sc1_window0] at e0
      refine (toInt_eq_iff _ k).mp ?_
      have : ((ix1 k : S32.Idx) 0).val = k.val := rfl
      rw [this] at e0
      omega
    · intro e0
      have e0' := (toInt_eq_iff _ k).mpr e0
      funext a
      match a with
      | ⟨0, _⟩ =>
        apply Fin.ext
        show (sc1.start u idx 0 + (sc1.window u 0 : Int)).toNat = k.val
        rw [sc1_start0, sc1_window0, e0']; simp
  · rename_i h
    constructor
    · intro e; exact absurd e (by simp)
    · intro e0
      exfalso; apply h
      have e0' := (toInt_eq_iff _ k).mpr e0
      intro a
      match a with
      | ⟨0, _⟩ =>
        show 0 ≤ sc1.start u idx 0 + (sc1.window u 0 : Int) ∧ sc1.start u idx 0 + (sc1.window u 0 : Int) < 32
        rw [sc1_start0, sc1_window0, e0']; omega

private theorem sc1_resultIdx' (r : Fin 2000000) (idx : IVec S2000000x1 32) (k : Fin 32) :
    sc1.resultIdx? (ix1 r) idx = some (ix1 k) ↔ idx (ix2 r (0 : Fin 1)) = BitVec.ofNat 32 k.val :=
  sc1_resultIdx (ix1 r) idx k

/-- The accumulating scatter into the [32] table, read at k. -/
private theorem sc1_apply (x : S32.Idx → EReal) (idx : IVec S2000000x1 32) (upd : S2000000.Idx → EReal) (k : Fin 32) :
    Ideal.hostScatterAdd sc1 x idx upd (ix1 k)
      = x (ix1 k) + ∑ r : Fin 2000000, Cert.Spec.oh (idx (ix2 r (0 : Fin 1))) k * upd (ix1 r) := by
  unfold Ideal.hostScatterAdd
  refine congrArg (fun z => x (ix1 k) + z) ?_
  rw [Finset.sum_filter, ← Equiv.sum_comp (idxEquiv1 (n := 2000000)).symm]
  refine Finset.sum_congr rfl fun r _ => ?_
  show (if sc1.resultIdx? (ix1 r) idx = some (ix1 k) then upd (ix1 r) else 0) = _
  simp only [sc1_resultIdx']
  unfold Cert.Spec.oh
  by_cases h : idx (ix2 r (0 : Fin 1)) = BitVec.ofNat 32 k.val
  · rw [if_pos h, if_pos h, one_mul]
  · rw [if_neg h, if_neg h, zero_mul]

/-! ### The gather of a [32,64] table at the rows' start indices -/

private theorem ga_siIdx (y : S2000000x64.Idx) (c : Fin ga.startIndexMap.length) :
    ga.siIdx y c = ix2 (y 0) (0 : Fin 1) := by
  funext b
  match b with
  | ⟨0, _⟩ => rfl
  | ⟨1, _⟩ => exact Fin.ext (show c.val = 0 from Nat.lt_one_iff.mp c.isLt)

private theorem ga_apply {α : Type} (x : S32x64.Idx → α) (idx : IVec S2000000x1 32) (r : Fin 2000000) (j : Fin 64) :
    Host.gather ga x idx (ix2 r j)
      = x (ix2 (⟨min (idx (ix2 r (0 : Fin 1))).toInt.toNat 31, by omega⟩ : Fin 32) j) := by
  unfold Host.gather
  refine congrArg x ?_
  funext a
  match a with
  | ⟨0, _⟩ =>
    apply Fin.ext
    show ga.start (ix2 r j) idx 0 + ga.batchCoord (ix2 r j) 0 + ga.offCoord (ix2 r j) 0 = _
    rw [GatherDims.batchCoord_eq_zero _ _ _ List.not_mem_nil,
      GatherDims.offCoord_eq_zero _ _ _ (show ¬ (0 : Fin 2) ∈ ga.sKept by decide)]
    unfold GatherDims.start
    rw [dif_pos (show (0 : Fin 2) ∈ ga.startIndexMap from List.mem_singleton.mpr rfl), ga_siIdx]
    rfl
  | ⟨1, _⟩ =>
    apply Fin.ext
    show ga.start (ix2 r j) idx 1 + ga.batchCoord (ix2 r j) 1 + ga.offCoord (ix2 r j) 1 = _
    rw [GatherDims.batchCoord_eq_zero _ _ _ List.not_mem_nil]
    unfold GatherDims.start GatherDims.offCoord
    rw [dif_neg (show ¬ (1 : Fin 2) ∈ ga.startIndexMap by decide), dif_pos (show (1 : Fin 2) ∈ ga.sKept by decide)]
    show 0 + 0 + j.val = j.val
    omega

/-- The same with the start index named. -/
private theorem ga_apply' {α : Type} (x : S32x64.Idx → α) (idx : IVec S2000000x1 32) (r : Fin 2000000) (j : Fin 64)
    (v : BitVec 32) (hv : idx (ix2 r (0 : Fin 1)) = v) :
    Host.gather ga x idx (ix2 r j) = x (ix2 (⟨min v.toInt.toNat 31, by omega⟩ : Fin 32) j) := by
  subst hv; exact ga_apply x idx r j

/-- The negative type word wrapped once, as the program's compare, add and select spell it. -/
private theorem wrap_eq (v : BitVec 32) :
    Scalar.select (IntOp.cmpi .slt v 0#32) (IntOp.addi v 32#32) v = Cert.Spec.wrap v := by
  unfold Cert.Spec.wrap
  show (if BitVec.ofBool (v.slt 0#32) = 1 then v + 32#32 else v) = _
  by_cases h : v.slt 0#32 = true
  · rw [if_pos h, h]; rfl
  · have h' : v.slt 0#32 = false := by simpa using h
    rw [if_neg h, h']; rfl

/-- At the extended reals the host's accumulating scatter is the exact sum, whatever the shapes. -/
private theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-! ### The stages of the reference, read at a point -/

section Stages

variable (x0 : (⟨S2000000x64, .f32⟩ : BufTy).Contents (Elt Ideal)) (x1 : (⟨S2000000, .i32⟩ : BufTy).Contents (Elt Ideal))
  (x2 x3 : (⟨S32x64, .f32⟩ : BufTy).Contents (Elt Ideal))

/-- The rows and their type words, by coordinates. -/
private abbrev X : Fin 2000000 → Fin 64 → EReal := fun r j => x0 (ix2 r j)
private abbrev T : Fin 2000000 → BitVec 32 := fun r => x1 (ix1 r)

/-- Row r of the [2000000,1] column of a [2000000] vector is the vector's element r. -/
private theorem col_idx (r : Fin 2000000) (c : Fin 1) :
    (fun a => match a with | ⟨0, _⟩ => ⟨((ix2 r c : S2000000x1.Idx) 0).val, ((ix2 r c : S2000000x1.Idx) 0).isLt⟩ : S2000000.Idx)
      = ix1 r := by
  funext a; match a with | ⟨0, _⟩ => rfl

private theorem v1_at (r : Fin 2000000) : Read.val_main_v1 (F := Ideal) x1 (ix2 r (0 : Fin 1)) = x1 (ix1 r) := by
  rw [Read.val_main_v1_apply]; exact congrArg x1 (col_idx r 0)
private theorem v5_at (r : Fin 2000000) : Read.val_main_v5 (F := Ideal) x1 (ix2 r (0 : Fin 1)) = x1 (ix1 r) := by
  rw [Read.val_main_v5_apply]; exact congrArg x1 (col_idx r 0)
private theorem v21_at (r : Fin 2000000) : Read.val_main_v21 (F := Ideal) x1 (ix2 r (0 : Fin 1)) = x1 (ix1 r) := by
  rw [Read.val_main_v21_apply]; exact congrArg x1 (col_idx r 0)

/-- The four wrapped start-index columns. -/
private theorem v16_at (r : Fin 2000000) :
    Read.val_main_v16 (F := Ideal) x1 (ix2 r (0 : Fin 1)) = Cert.Spec.wrap (x1 (ix1 r)) := by
  rw [Read.val_main_v16_apply, Read.val_main_v15_apply, Read.val_main_v12_apply, Read.val_main_v14_apply,
    Read.val_main_v11_apply, Read.val_main_v13_apply, Read.val_main_c_apply, Read.val_main_c_3_apply]
  show Scalar.select (IntOp.cmpi .slt (x1 (Read.idx_main_v16 (ix2 r 0))) 0#32) (IntOp.addi (x1 (Read.idx_main_v16 (ix2 r 0))) 32#32)
    (x1 (Read.idx_main_v16 (ix2 r 0))) = _
  rw [show Read.idx_main_v16 (ix2 r (0 : Fin 1)) = ix1 r from col_idx r 0]
  exact wrap_eq _
private theorem v33_at (r : Fin 2000000) :
    Read.val_main_v33 (F := Ideal) x1 (ix2 r (0 : Fin 1)) = Cert.Spec.wrap (x1 (ix1 r)) := by
  rw [Read.val_main_v33_apply, Read.val_main_v32_apply, Read.val_main_v29_apply, Read.val_main_v31_apply,
    Read.val_main_v28_apply, Read.val_main_v30_apply, Read.val_main_c_6_apply, Read.val_main_c_7_apply]
  show Scalar.select (IntOp.cmpi .slt (x1 (Read.idx_main_v33 (ix2 r 0))) 0#32) (IntOp.addi (x1 (Read.idx_main_v33 (ix2 r 0))) 32#32)
    (x1 (Read.idx_main_v33 (ix2 r 0))) = _
  rw [show Read.idx_main_v33 (ix2 r (0 : Fin 1)) = ix1 r from col_idx r 0]
  exact wrap_eq _
private theorem v41_at (r : Fin 2000000) :
    Read.val_main_v41 (F := Ideal) x1 (ix2 r (0 : Fin 1)) = Cert.Spec.wrap (x1 (ix1 r)) := by
  rw [Read.val_main_v41_apply, Read.val_main_v40_apply, Read.val_main_v37_apply, Read.val_main_v39_apply,
    Read.val_main_v36_apply, Read.val_main_v38_apply, Read.val_main_c_8_apply, Read.val_main_c_9_apply]
  show Scalar.select (IntOp.cmpi .slt (x1 (Read.idx_main_v41 (ix2 r 0))) 0#32) (IntOp.addi (x1 (Read.idx_main_v41 (ix2 r 0))) 32#32)
    (x1 (Read.idx_main_v41 (ix2 r 0))) = _
  rw [show Read.idx_main_v41 (ix2 r (0 : Fin 1)) = ix1 r from col_idx r 0]
  exact wrap_eq _
private theorem v49_at (r : Fin 2000000) :
    Read.val_main_v49 (F := Ideal) x1 (ix2 r (0 : Fin 1)) = Cert.Spec.wrap (x1 (ix1 r)) := by
  rw [Read.val_main_v49_apply, Read.val_main_v48_apply, Read.val_main_v45_apply, Read.val_main_v47_apply,
    Read.val_main_v44_apply, Read.val_main_v46_apply, Read.val_main_c_10_apply, Read.val_main_c_11_apply]
  show Scalar.select (IntOp.cmpi .slt (x1 (Read.idx_main_v49 (ix2 r 0))) 0#32) (IntOp.addi (x1 (Read.idx_main_v49 (ix2 r 0))) 32#32)
    (x1 (Read.idx_main_v49 (ix2 r 0))) = _
  rw [show Read.idx_main_v49 (ix2 r (0 : Fin 1)) = ix1 r from col_idx r 0]
  exact wrap_eq _

/-- The count of a type's rows. -/
private theorem v6_at (k : Fin 32) : (Read.val_main_v6 (F := Ideal) x1 (ix1 k) : EReal) = Cert.Spec.rcnt (T x1) k := by
  refine (congrFun (scatterAdd_ideal _ _ _ _) (ix1 k)).trans ?_
  refine (sc1_apply _ _ _ k).trans ?_
  rw [Read.val_main_v4_apply, Read.val_main_cst_1_apply, Ideal.ofBits_def, Ideal.ofBits_zero_f32, zero_add]
  unfold Cert.Spec.rcnt
  refine Finset.sum_congr rfl fun r _ => ?_
  rw [v5_at, Read.val_main_v3_apply, Read.val_main_cst_0_apply, Ideal.ofBits_def]
  rfl

/-- The clipped count. -/
private theorem v7_at (k : Fin 32) : (Read.val_main_v7 (F := Ideal) x1 (ix1 k) : EReal) = Cert.Spec.cl (Cert.Spec.rcnt (T x1) k) := by
  rw [Read.val_main_v7_apply, v6_at, Read.val_main_call0_v1_apply, Read.val_main_call0_v0_apply, Read.val_main_cst_2_apply]
  rfl

private theorem v9_at (k : Fin 32) (j : Fin 64) :
    (Read.val_main_v9 (F := Ideal) x1 (ix2 k j) : EReal) = Cert.Spec.cl (Cert.Spec.rcnt (T x1) k) := by
  rw [Read.val_main_v9_apply, Read.val_main_v8_apply]
  rw [show Read.idx_main_v8 (Read.idx_main_v9 (ix2 k j)) = ix1 k from by funext a; match a with | ⟨0, _⟩ => rfl]
  exact v7_at x1 k
private theorem v23_at (k : Fin 32) (j : Fin 64) :
    (Read.val_main_v23 (F := Ideal) x1 (ix2 k j) : EReal) = Cert.Spec.cl (Cert.Spec.rcnt (T x1) k) := by
  rw [Read.val_main_v23_apply, Read.val_main_v8_apply]
  rw [show Read.idx_main_v8 (Read.idx_main_v23 (ix2 k j)) = ix1 k from by funext a; match a with | ⟨0, _⟩ => rfl]
  exact v7_at x1 k

/-- The sum of a type's rows. -/
private theorem v2_at (k : Fin 32) (j : Fin 64) :
    (Read.val_main_v2 (F := Ideal) x0 x1 (ix2 k j) : EReal) = Cert.Spec.rsum1 (X x0) (T x1) k j := by
  refine (congrFun (scatterAdd_ideal _ _ _ _) (ix2 k j)).trans ?_
  refine (sc2_apply _ _ _ k j).trans ?_
  rw [Read.val_main_v0_apply, Read.val_main_cst_apply, Ideal.ofBits_def, Ideal.ofBits_zero_f32, zero_add]
  unfold Cert.Spec.rsum1
  refine Finset.sum_congr rfl fun r _ => ?_
  rw [v1_at]

/-- The mean of a type's rows. -/
private theorem v10_at (k : Fin 32) (j : Fin 64) :
    (Read.val_main_v10 (F := Ideal) x0 x1 (ix2 k j) : EReal) = Cert.Spec.rmean (X x0) (T x1) k j := by
  rw [Read.val_main_v10_apply, v2_at, v9_at, Ideal.hostDivf_def]
  rfl

/-- A row's deviation from its type's mean. -/
private theorem v18_at (r : Fin 2000000) (j : Fin 64) :
    (Read.val_main_v18 (F := Ideal) x0 x1 (ix2 r j) : EReal) = Cert.Spec.rdiff (X x0) (T x1) r j := by
  rw [Read.val_main_v18_apply]
  have hg : Read.val_main_v17 (F := Ideal) x0 x1 (ix2 r j)
      = Read.val_main_v10 (F := Ideal) x0 x1 (ix2 (Cert.Spec.gi (x1 (ix1 r))) j) :=
    ga_apply' (Read.val_main_v10 (F := Ideal) x0 x1) (Read.val_main_v16 (F := Ideal) x1) r j _ (v16_at x1 r)
  rw [hg, v10_at, Ideal.subf_def]
  rfl

/-- The sum of a type's squared deviations. -/
private theorem v22_at (k : Fin 32) (j : Fin 64) :
    (Read.val_main_v22 (F := Ideal) x0 x1 (ix2 k j) : EReal) = Cert.Spec.rsumd (X x0) (T x1) k j := by
  refine (congrFun (scatterAdd_ideal _ _ _ _) (ix2 k j)).trans ?_
  refine (sc2_apply _ _ _ k j).trans ?_
  rw [Read.val_main_v20_apply, Read.val_main_cst_4_apply, Ideal.ofBits_def, Ideal.ofBits_zero_f32, zero_add]
  unfold Cert.Spec.rsumd
  refine Finset.sum_congr rfl fun r _ => ?_
  rw [v21_at, Read.val_main_v19_apply, v18_at, Ideal.mulf_def]

/-- The reciprocal standard deviation of a type. -/
private theorem v27_at (k : Fin 32) (j : Fin 64) :
    (Read.val_main_v27 (F := Ideal) x0 x1 (ix2 k j) : EReal) = Cert.Spec.ristd (X x0) (T x1) k j := by
  rw [Read.val_main_v27_apply, Read.val_main_v26_apply, Read.val_main_v24_apply, v22_at, v23_at,
    Read.val_main_v25_apply, Read.val_main_cst_5_apply, Ideal.hostDivf_def, Ideal.addf_def, Ideal.hostUnary_rsqrt_def]
  rfl

end Stages

theorem out (x0 : (⟨S2000000x64, .f32⟩ : BufTy).Contents (Elt Ideal)) (x1 : (⟨S2000000, .i32⟩ : BufTy).Contents (Elt Ideal))
    (x2 x3 : (⟨S32x64, .f32⟩ : BufTy).Contents (Elt Ideal)) (r : Fin 2000000) (j : Fin 64) :
    (Cert.ReferenceIdeal.Read.val_main_v51 (F := Ideal) x0 x1 x2 x3 (ix2 r j) : EReal)
      = Cert.Spec.outR (fun r j => x0 (ix2 r j)) (fun r => x1 (ix1 r)) (fun k j => x2 (ix2 k j)) (fun k j => x3 (ix2 k j)) r j := by
  have h34 : Read.val_main_v34 (F := Ideal) x0 x1 (ix2 r j)
      = Read.val_main_v27 (F := Ideal) x0 x1 (ix2 (Cert.Spec.gi (x1 (ix1 r))) j) :=
    ga_apply' (Read.val_main_v27 (F := Ideal) x0 x1) (Read.val_main_v33 (F := Ideal) x1) r j _ (v33_at x1 r)
  have h42 : Read.val_main_v42 (F := Ideal) x1 x2 (ix2 r j) = x2 (ix2 (Cert.Spec.gi (x1 (ix1 r))) j) :=
    ga_apply' x2 (Read.val_main_v41 (F := Ideal) x1) r j _ (v41_at x1 r)
  have h50 : Read.val_main_v50 (F := Ideal) x1 x3 (ix2 r j) = x3 (ix2 (Cert.Spec.gi (x1 (ix1 r))) j) :=
    ga_apply' x3 (Read.val_main_v49 (F := Ideal) x1) r j _ (v49_at x1 r)
  rw [Read.val_main_v51_apply, Read.val_main_v43_apply, Read.val_main_v35_apply, v18_at, h34, v27_at, h42, h50,
    Ideal.addf_def, Ideal.mulf_def, Ideal.mulf_def]
  rfl

end Cert.ReferenceIdeal.RefV

end
-- ==== Proof.Algebra.lean ====
/-
  Over finite rows and tables, and type words that name a type, the kernel's and the reference's results are one
  number. The indicator sums select: `∑ k, [t = k] · f k = f t`. The sums over all rows are the sums block by
  block (two halves of forty blocks of 25000 rows). With `n' = max 1 n`, `μ = s / n'` and either `n = n'` or no row
  of the type at all, `∑ (x - μ)² = q - n' μ²`, so the two-pass variance is the one-pass one, which is therefore
  non-negative and its clamp at zero idle. The tables being finite, a table's residual against itself is zero, and
  `x · (σ w) + (b - μ (σ w)) = (x - μ) σ w + b`.
-/
import proofs.«405719_j88347477279067_2_alg».proof.Proof.Spec
import Mathlib.Data.EReal.Basic
import Mathlib.Algebra.BigOperators.Fin
import Mathlib.Algebra.Order.BigOperators.Group.Finset
import Mathlib.Tactic.Ring
import Mathlib.Tactic.Linarith
import Mathlib.Tactic.FieldSimp

noncomputable section

namespace Cert.Spec

open Idealize.ShloMosaic

/-! ### The literals -/

private theorem zero_eq : zero = 0 := by unfold zero; exact Ideal.ofBits_zero_f32

private theorem one_eq : one = 1 := by
  unfold one; simp [Ideal.ofBits, Ideal.ieee, -EReal.coe_mul]; norm_num

private theorem eps_eq : ∃ e : ℝ, 0 < e ∧ eps = (e : EReal) := by
  unfold eps
  simp [Ideal.ofBits, Ideal.ieee, -EReal.coe_mul]

/-! ### Type words below 32 -/

/-- The type a type word below 32 names. -/
private def tyOf (v : BitVec 32) (hv : v.toNat < 32) : Fin 32 := ⟨v.toNat, hv⟩

private theorem oh_eq (v : BitVec 32) (hv : v.toNat < 32) (k : Fin 32) :
    oh v k = if tyOf v hv = k then 1 else 0 := by
  unfold oh tyOf
  have hk := k.isLt
  have : (v = BitVec.ofNat 32 k.val) ↔ ((⟨v.toNat, hv⟩ : Fin 32) = k) := by
    constructor
    · intro h
      apply Fin.ext
      have := congrArg BitVec.toNat h
      simp only [BitVec.toNat_ofNat] at this
      show v.toNat = k.val
      omega
    · intro h
      have h' : v.toNat = k.val := congrArg Fin.val h
      apply BitVec.eq_of_toNat_eq
      simp only [BitVec.toNat_ofNat]
      omega
  simp only [this]

private theorem gi_eq (v : BitVec 32) (hv : v.toNat < 32) : gi v = tyOf v hv := by
  unfold gi tyOf wrap
  have h1 : v.toInt = (v.toNat : Int) := BitVec.toInt_eq_toNat_of_lt (by omega)
  have h2 : v.slt 0#32 = false := by
    rw [BitVec.slt_eq_decide, h1]
    simp
  apply Fin.ext
  simp only [h2, h1]
  simp
  omega

private theorem sel_eq (v : BitVec 32) (hv : v.toNat < 32) (f : Fin 32 → EReal) : sel v f = f (tyOf v hv) := by
  unfold sel
  simp only [oh_eq v hv, ite_mul, one_mul, zero_mul]
  rw [Finset.sum_ite_eq]
  simp

/-! ### Sums -/

/-- A finite sum of reals is a real. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum over all rows is the sum block by block. -/
private theorem sum_rows {M : Type*} [AddCommMonoid M] (f : Fin 2000000 → M) :
    ∑ r : Fin 2000000, f r = ∑ κ : Fin 2, ∑ s : Fin 40, ∑ q : Fin 25000, f (row κ s q) := by
  let e : (Fin 2 × Fin 40) × Fin 25000 ≃ Fin 2000000 :=
    (Equiv.prodCongr finProdFinEquiv (Equiv.refl (Fin 25000))).trans
      (finProdFinEquiv.trans (finCongr (by norm_num)))
  rw [← Equiv.sum_comp e f, Fintype.sum_prod_type, Fintype.sum_prod_type]
  refine Finset.sum_congr rfl fun κ _ => Finset.sum_congr rfl fun s _ => Finset.sum_congr rfl fun q _ => ?_
  congr 1
  apply Fin.ext
  simp [e, row, finProdFinEquiv]
  ring

/-! ### The two variances, over the reals -/
/-- Over 0/1 weights `I`, with `n' = max 1 n` and `μ = s / n'`: the weighted squared deviations from `μ` sum to
    `q - n' μ²`, that is, divided by `n'`, to `q / n' - μ²`. -/
private theorem two_pass_eq_one_pass {ι : Type*} [Fintype ι] (I y : ι → ℝ) (hI : ∀ i, I i = 0 ∨ I i = 1) :
    (∑ i, I i * ((y i - (∑ j, I j * y j) * (1 / max 1 (∑ j, I j))) * (y i - (∑ j, I j * y j) * (1 / max 1 (∑ j, I j)))))
        * (1 / max 1 (∑ j, I j))
      = (∑ i, I i * (y i * y i)) * (1 / max 1 (∑ j, I j))
        - ((∑ j, I j * y j) * (1 / max 1 (∑ j, I j))) * ((∑ j, I j * y j) * (1 / max 1 (∑ j, I j))) := by
  set n := ∑ j, I j with hn
  set s := ∑ j, I j * y j with hs
  set q := ∑ i, I i * (y i * y i) with hq
  set μ := s * (1 / max 1 n) with hμ
  have hD : ∑ i, I i * ((y i - μ) * (y i - μ)) = q - 2 * μ * s + μ * μ * n := by
    have : ∀ i, I i * ((y i - μ) * (y i - μ)) = I i * (y i * y i) - 2 * μ * (I i * y i) + μ * μ * I i := by
      intro i; ring
    simp only [this, Finset.sum_add_distrib, Finset.sum_sub_distrib, ← Finset.mul_sum]
    rfl
  rw [hD]
  by_cases h : ∃ i, I i = 1
  · obtain ⟨i, hi⟩ := h
    have hnn : ∀ j ∈ Finset.univ, 0 ≤ I j := fun j _ => by rcases hI j with h | h <;> rw [h] <;> norm_num
    have h1 : 1 ≤ n := by
      have := Finset.single_le_sum hnn (Finset.mem_univ i)
      rw [hi] at this; exact this
    have hmax : max 1 n = n := max_eq_right h1
    rw [hμ, hmax]
    have hn0 : n ≠ 0 := by linarith
    field_simp
    ring
  · have h0 : ∀ i, I i = 0 := fun i => by
      rcases hI i with h' | h'
      · exact h'
      · exact absurd ⟨i, h'⟩ h
    have hn' : n = 0 := by rw [hn]; simp [h0]
    have hs' : s = 0 := by rw [hs]; simp [h0]
    have hq' : q = 0 := by rw [hq]; simp [h0]
    rw [hμ, hn', hs', hq']
    simp

/-- The same quantity is non-negative. -/
private theorem two_pass_nonneg {ι : Type*} [Fintype ι] (I y : ι → ℝ) (hI : ∀ i, I i = 0 ∨ I i = 1) (μ : ι → ℝ) :
    0 ≤ (∑ i, I i * ((y i - μ i) * (y i - μ i))) * (1 / max 1 (∑ j, I j)) := by
  apply mul_nonneg
  · apply Finset.sum_nonneg
    intro i _
    apply mul_nonneg
    · rcases hI i with h | h <;> rw [h] <;> norm_num
    · exact mul_self_nonneg _
  · have : (0 : ℝ) < max 1 (∑ j, I j) := lt_of_lt_of_le one_pos (le_max_left _ _)
    positivity

/-! ### The programs' quantities as reals -/

private theorem max_one_pos (n : ℝ) : (0 : ℝ) < max 1 n := lt_of_lt_of_le one_pos (le_max_left _ _)

private theorem cl_coe (n : ℝ) : cl (n : EReal) = ((max 1 n : ℝ) : EReal) := by
  unfold cl
  rw [one_eq, ← EReal.coe_one]
  exact (EReal.coe_strictMono.monotone.map_max).symm

private theorem div_cl_coe (a n : ℝ) :
    Ideal.div (a : EReal) (cl (n : EReal)) = ((a * (1 / max 1 n) : ℝ) : EReal) := by
  rw [cl_coe, Ideal.div_coe (max_one_pos n).ne', EReal.coe_mul]

private theorem mean_coe (s n : ℝ) : mean (s : EReal) (n : EReal) = ((s * (1 / max 1 n) : ℝ) : EReal) :=
  div_cl_coe s n

private theorem varK_coe (s q n : ℝ) :
    varK (s : EReal) (q : EReal) (n : EReal)
      = ((max (q * (1 / max 1 n) - s * (1 / max 1 n) * (s * (1 / max 1 n))) 0 : ℝ) : EReal) := by
  unfold varK
  rw [mean_coe, div_cl_coe, zero_eq, ← EReal.coe_mul, ← EReal.coe_sub, ← EReal.coe_zero]
  exact (EReal.coe_strictMono.monotone.map_max).symm

private theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

private theorem scaleK_coe (s q n w e : ℝ) (he : 0 < e) (hee : eps = (e : EReal)) :
    scaleK (s : EReal) (q : EReal) (n : EReal) (w : EReal)
      = (((Real.sqrt (max (q * (1 / max 1 n) - s * (1 / max 1 n) * (s * (1 / max 1 n))) 0 + e))⁻¹ * w : ℝ) : EReal) := by
  unfold scaleK
  rw [varK_coe, hee, ← EReal.coe_add, rsqrt_pos (add_pos_of_nonneg_of_pos (le_max_right _ _) he), ← EReal.coe_mul]

private theorem shiftK_coe (s q n w b e : ℝ) (he : 0 < e) (hee : eps = (e : EReal)) :
    shiftK (s : EReal) (q : EReal) (n : EReal) (w : EReal) (b : EReal)
      = ((b - s * (1 / max 1 n)
          * ((Real.sqrt (max (q * (1 / max 1 n) - s * (1 / max 1 n) * (s * (1 / max 1 n))) 0 + e))⁻¹ * w) : ℝ) : EReal) := by
  unfold shiftK
  rw [scaleK_coe s q n w e he hee, mean_coe, ← EReal.coe_mul, ← EReal.coe_sub]

section
variable (X : Fin 2000000 → Fin 64 → ℝ) (t : Fin 2000000 → BitVec 32) (ht : ∀ r, (t r).toNat < 32)

/-- The 0/1 weight of row `r` for type `k`, as a real. -/
private def ind (r : Fin 2000000) (k : Fin 32) : ℝ := if tyOf (t r) (ht r) = k then 1 else 0

private theorem ind_01 (r : Fin 2000000) (k : Fin 32) : ind t ht r k = 0 ∨ ind t ht r k = 1 := by
  unfold ind; split_ifs <;> simp

private theorem oh_coe (r : Fin 2000000) (k : Fin 32) : oh (t r) k = ((ind t ht r k : ℝ) : EReal) := by
  rw [oh_eq (t r) (ht r)]; unfold ind; split_ifs <;> simp

/-- The count, the sum, the sum of squares, the mean and the sum of squared deviations of a type, as reals. -/
private def cntR (k : Fin 32) : ℝ := ∑ r, ind t ht r k
private def sumR (k : Fin 32) (c : Fin 64) : ℝ := ∑ r, ind t ht r k * X r c
private def sqR (k : Fin 32) (c : Fin 64) : ℝ := ∑ r, ind t ht r k * (X r c * X r c)
private def meanR (k : Fin 32) (c : Fin 64) : ℝ := sumR X t ht k c * (1 / max 1 (cntR t ht k))
private def devR (k : Fin 32) (c : Fin 64) : ℝ :=
  ∑ r, ind t ht r k * ((X r c - meanR X t ht k c) * (X r c - meanR X t ht k c))

private theorem kcnt_coe (k : Fin 32) : kcnt t k = ((cntR t ht k : ℝ) : EReal) := by
  unfold kcnt hcnt cntR
  rw [← coe_sum]
  refine (sum_rows (fun r => oh (t r) k)).symm.trans ?_
  exact Finset.sum_congr rfl fun r _ => oh_coe t ht r k

private theorem ksum1_coe (k : Fin 32) (c : Fin 64) :
    ksum1 (fun r c => ((X r c : ℝ) : EReal)) t k c = ((sumR X t ht k c : ℝ) : EReal) := by
  unfold ksum1 hsum1 sumR
  rw [← coe_sum]
  refine (sum_rows (fun r => oh (t r) k * ((X r c : ℝ) : EReal))).symm.trans ?_
  exact Finset.sum_congr rfl fun r _ => by rw [oh_coe t ht r k, EReal.coe_mul]

private theorem ksum2_coe (k : Fin 32) (c : Fin 64) :
    ksum2 (fun r c => ((X r c : ℝ) : EReal)) t k c = ((sqR X t ht k c : ℝ) : EReal) := by
  unfold ksum2 hsum2 sqR
  rw [← coe_sum]
  refine (sum_rows (fun r => oh (t r) k * (((X r c : ℝ) : EReal) * ((X r c : ℝ) : EReal)))).symm.trans ?_
  exact Finset.sum_congr rfl fun r _ => by rw [oh_coe t ht r k, EReal.coe_mul, EReal.coe_mul]

private theorem rcnt_coe (k : Fin 32) : rcnt t k = ((cntR t ht k : ℝ) : EReal) := by
  unfold rcnt cntR
  rw [← coe_sum]
  exact Finset.sum_congr rfl fun r _ => by rw [one_eq, mul_one, oh_coe t ht r k]

private theorem rsum1_coe (k : Fin 32) (c : Fin 64) :
    rsum1 (fun r c => ((X r c : ℝ) : EReal)) t k c = ((sumR X t ht k c : ℝ) : EReal) := by
  unfold rsum1 sumR
  rw [← coe_sum]
  exact Finset.sum_congr rfl fun r _ => by rw [oh_coe t ht r k, EReal.coe_mul]

private theorem rdiff_coe (r : Fin 2000000) (c : Fin 64) :
    rdiff (fun r c => ((X r c : ℝ) : EReal)) t r c
      = ((X r c - meanR X t ht (tyOf (t r) (ht r)) c : ℝ) : EReal) := by
  unfold rdiff rmean meanR
  rw [gi_eq (t r) (ht r), rsum1_coe X t ht, rcnt_coe t ht, mean_coe, ← EReal.coe_sub]

/-- In a type's deviation sum each row's own type's mean is the type's mean. -/
private theorem dev_own (k : Fin 32) (c : Fin 64) :
    ∑ r, ind t ht r k * ((X r c - meanR X t ht (tyOf (t r) (ht r)) c) * (X r c - meanR X t ht (tyOf (t r) (ht r)) c))
      = devR X t ht k c := by
  unfold devR
  refine Finset.sum_congr rfl fun r _ => ?_
  unfold ind
  split_ifs with h
  · rw [h]
  · simp

private theorem rsumd_coe (k : Fin 32) (c : Fin 64) :
    rsumd (fun r c => ((X r c : ℝ) : EReal)) t k c = ((devR X t ht k c : ℝ) : EReal) := by
  unfold rsumd
  rw [← dev_own X t ht k c, ← coe_sum]
  exact Finset.sum_congr rfl fun r _ => by
    rw [rdiff_coe X t ht r c, oh_coe t ht r k, EReal.coe_mul, EReal.coe_mul]

private theorem dev_nonneg (k : Fin 32) (c : Fin 64) : 0 ≤ devR X t ht k c * (1 / max 1 (cntR t ht k)) :=
  two_pass_nonneg (fun r => ind t ht r k) (fun r => X r c) (fun r => ind_01 t ht r k) (fun _ => meanR X t ht k c)

/-- The one-pass variance, clamped, is the two-pass one. -/
private theorem var_eq (k : Fin 32) (c : Fin 64) :
    max (sqR X t ht k c * (1 / max 1 (cntR t ht k))
        - sumR X t ht k c * (1 / max 1 (cntR t ht k)) * (sumR X t ht k c * (1 / max 1 (cntR t ht k)))) 0
      = devR X t ht k c * (1 / max 1 (cntR t ht k)) := by
  have h1 : devR X t ht k c * (1 / max 1 (cntR t ht k))
      = sqR X t ht k c * (1 / max 1 (cntR t ht k))
        - sumR X t ht k c * (1 / max 1 (cntR t ht k)) * (sumR X t ht k c * (1 / max 1 (cntR t ht k))) :=
    two_pass_eq_one_pass (fun r => ind t ht r k) (fun r => X r c) (fun r => ind_01 t ht r k)
  rw [← h1]
  exact max_eq_left (dev_nonneg X t ht k c)

private theorem ristd_coe (e : ℝ) (he : 0 < e) (hee : eps = (e : EReal)) (k : Fin 32) (c : Fin 64) :
    ristd (fun r c => ((X r c : ℝ) : EReal)) t k c
      = (((Real.sqrt (devR X t ht k c * (1 / max 1 (cntR t ht k)) + e))⁻¹ : ℝ) : EReal) := by
  unfold ristd
  rw [rsumd_coe X t ht, rcnt_coe t ht, div_cl_coe, hee, ← EReal.coe_add,
    rsqrt_pos (add_pos_of_nonneg_of_pos (dev_nonneg X t ht k c) he)]

end

/-- The two programs' results agree wherever the rows and the tables are finite and every type word names a type. -/
theorem outK_eq_outR (x : Fin 2000000 → Fin 64 → EReal) (t : Fin 2000000 → BitVec 32) (w b : Fin 32 → Fin 64 → EReal)
    (hx : ∀ r c, ∃ a : ℝ, x r c = (a : EReal)) (hw : ∀ k c, ∃ a : ℝ, w k c = (a : EReal))
    (hb : ∀ k c, ∃ a : ℝ, b k c = (a : EReal)) (ht : ∀ r, (t r).toNat < 32)
    (r : Fin 2000000) (c : Fin 64) : outK x t w b r c = outR x t w b r c := by
  choose X hX using hx
  choose W hW using hw
  choose B hB using hb
  obtain rfl : x = fun r c => ((X r c : ℝ) : EReal) := funext fun r => funext fun c => hX r c
  obtain rfl : w = fun k c => ((W k c : ℝ) : EReal) := funext fun k => funext fun c => hW k c
  obtain rfl : b = fun k c => ((B k c : ℝ) : EReal) := funext fun k => funext fun c => hB k c
  obtain ⟨e, he, hee⟩ := eps_eq
  unfold outK outR
  simp only [sel_eq _ (ht r), gi_eq _ (ht r)]
  unfold kscale kshift
  rw [ksum1_coe X t ht, ksum2_coe X t ht, kcnt_coe t ht, scaleK_coe _ _ _ _ e he hee,
    shiftK_coe _ _ _ _ _ e he hee, rdiff_coe X t ht, ristd_coe X t ht e he hee, var_eq X t ht]
  simp only [← EReal.coe_sub, ← EReal.coe_add, ← EReal.coe_mul]
  rw [EReal.coe_eq_coe_iff]
  unfold meanR
  ring

end Cert.Spec

end
-- ==== Proof.PreFacts.lean ====
/-
  What the precondition says of the argument arrays: every row entry and every table entry is a real number, and
  every type word is one of 0 … 31.
-/
import proofs.«405719_j88347477279067_2_alg».proof.Pre_finite_inputs
import proofs.«405719_j88347477279067_2_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx

set_option maxRecDepth 16384

noncomputable section

open Idealize.ShloMosaic Idealize.ShloMosaic.ValueIdx

namespace Cert.PreV

open Cert.Pre_finite_inputs

variable [Cert.Pre_finite_inputs.Facts]

/-- The one index of a scalar: a rank-0 array has a single cell. -/
private instance subsingleton_scalar_idx : Subsingleton S_.Idx := ⟨fun a b => funext fun d => d.elim0⟩

/-- The f32 pattern 0x7F800000 (sign 0, exponent all ones, fraction 0) denotes +∞. -/
private theorem inf_bits : Ideal.ofBits .f32 0x7F800000#32 = (⊤ : EReal) := by
  simp [Ideal.ofBits, Ideal.ieee]

/-- |x| < +∞ for an extended real x forces x to be a real number: max x (-x) is +∞ at both infinities. -/
private theorem real_of_abs_lt (x : EReal) (h : Ideal.cmp .olt (max x (-x)) (⊤ : EReal) = 1#1) :
    ∃ a : ℝ, x = (a : EReal) := by
  induction x using EReal.rec with
  | bot => simp [Ideal.cmp] at h
  | coe a => exact ⟨a, rfl⟩
  | top => simp [Ideal.cmp] at h

/-- A 32-bit word that is signed-at-least 0 and signed-below 32 has unsigned value below 32. -/
private theorem toNat_lt_32 (t : BitVec 32) (h1 : IntOp.cmpi .sge t 0#32 = 1#1) (h2 : IntOp.cmpi .slt t 32#32 = 1#1) :
    t.toNat < 32 := by
  rw [IntOp.cmpi_sge] at h1; rw [IntOp.cmpi_slt] at h2
  have e0 : (0#32 : BitVec 32).toInt = 0 := by decide
  have e32 : (32#32 : BitVec 32).toInt = 32 := by decide
  rw [e0] at h1; rw [e32] at h2
  rw [BitVec.toInt_eq_toNat_cond] at h1 h2
  have := t.isLt
  split at h1 <;> omega

theorem facts (a0 : FVec Ideal S2000000x64 .f32) (a1 : IVec S2000000 32) (a2 a3 : FVec Ideal S32x64 .f32)
    (h : Cert.Pre_finite_inputs.fn (F := Ideal) a0 a1 a2 a3 = (fun _ => 1#1)) :
    (∀ (r : Fin 2000000) (j : Fin 64), ∃ a : ℝ, (a0 (ix2 r j) : EReal) = (a : EReal))
    ∧ (∀ r : Fin 2000000, (a1 (ix1 r)).toNat < 32)
    ∧ (∀ (k : Fin 32) (j : Fin 64), ∃ a : ℝ, (a2 (ix2 k j) : EReal) = (a : EReal))
    ∧ (∀ (k : Fin 32) (j : Fin 64), ∃ a : ℝ, (a3 (ix2 k j) : EReal) = (a : EReal)) := by
  have h0 := congrFun h ix0
  dsimp only [fn, fn_part1] at h0
  -- the scalar result is a conjunction of four scalars, each a reduction by "and" over a whole array
  obtain ⟨h13, h19⟩ := IntOp.andi_eq_one.1 h0
  obtain ⟨h8, h12⟩ := IntOp.andi_eq_one.1 h13
  obtain ⟨h3, h7⟩ := IntOp.andi_eq_one.1 h8
  refine ⟨fun r j => ?_, fun r => ?_, fun k j => ?_, fun k j => ?_⟩
  · -- |a0 r j| < +∞
    have e := Host.reduce_andi_all _ _ _ _ _ h3 (ix2 r j)
    refine real_of_abs_lt _ ?_
    rw [← inf_bits]
    exact e
  · -- 0 ≤ a1 r < 32, read signed
    have e := Host.reduce_andi_all _ _ _ _ _ h19 (ix1 r)
    obtain ⟨e1, e2⟩ := IntOp.andi_eq_one.1 e
    exact toNat_lt_32 _ e1 e2
  · -- |a2 k j| < +∞
    have e := Host.reduce_andi_all _ _ _ _ _ h7 (ix2 k j)
    refine real_of_abs_lt _ ?_
    rw [← inf_bits]
    exact e
  · -- |a3 k j| < +∞
    have e := Host.reduce_andi_all _ _ _ _ _ h12 (ix2 k j)
    refine real_of_abs_lt _ ?_
    rw [← inf_bits]
    exact e

end Cert.PreV

end
-- ==== Proof.lean ====
/-
  The certificate of a per-type normalisation kernel against its jnp reference.

  The kernel makes two passes over the two million rows. The first accumulates, per half of the rows and per type,
  the sum of the rows, of their squares and the count, each as a product with the rows' indicator matrix; the host
  adds the halves and forms a scale `w / sqrt(max(E[x²] - E[x]², 0) + ε)` and a shift `b - mean · scale` per type; the
  second pass selects both per row, again by a product with the indicator matrix, each table split into itself and
  its residual, and leaves `x · scale + shift`. The reference sums by type with accumulating scatters, takes the
  two-pass variance of the deviations, and reads the per-type tables at the row's type with clamped gathers.

  Over the extended reals the two results are one function of the arguments wherever the float inputs are finite
  and every type word is one of 0 … 31 (outside that range the reference's gathers read a clamped row where the
  kernel's indicator is zero: the precondition states the range). The three frames are the generated ones; the
  ideal pass rewrote nothing.
-/
import proofs.«405719_j88347477279067_2_alg».proof.Defs
import proofs.«405719_j88347477279067_2_alg».proof.Proof.Gen.Kernel
import proofs.«405719_j88347477279067_2_alg».proof.Proof.Gen.Kernel.Skeleton
import proofs.«405719_j88347477279067_2_alg».proof.Proof.Gen.Kernel.Launch
import proofs.«405719_j88347477279067_2_alg».proof.Proof.Gen.Kernel.Points
import proofs.«405719_j88347477279067_2_alg».proof.Proof.Gen.Kernel.Frame
import proofs.«405719_j88347477279067_2_alg».proof.Proof.Gen.KernelIdeal
import proofs.«405719_j88347477279067_2_alg».proof.Proof.Gen.KernelIdeal.Skeleton
import proofs.«405719_j88347477279067_2_alg».proof.Proof.Gen.KernelIdeal.Launch
import proofs.«405719_j88347477279067_2_alg».proof.Proof.Gen.KernelIdeal.Points
import proofs.«405719_j88347477279067_2_alg».proof.Proof.Gen.KernelIdeal.Frame
import proofs.«405719_j88347477279067_2_alg».proof.Proof.Gen.ReferenceIdeal
import proofs.«405719_j88347477279067_2_alg».proof.Proof.Gen.Pre_finite_inputs
import proofs.«405719_j88347477279067_2_alg».proof.Proof.Gen.ReferenceIdeal.Run
import proofs.«405719_j88347477279067_2_alg».proof.Proof.Gen.ReferenceIdeal.Read
import proofs.«405719_j88347477279067_2_alg».proof.Proof.KRun
import proofs.«405719_j88347477279067_2_alg».proof.Proof.Bridge
import proofs.«405719_j88347477279067_2_alg».proof.Proof.RefValue
import proofs.«405719_j88347477279067_2_alg».proof.Proof.Algebra
import proofs.«405719_j88347477279067_2_alg».proof.Proof.PreFacts
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end; the kernel's result array is `outK` of the arguments entry by entry, the reference's is
    `outR` of the same arguments, and under the precondition the two agree. -/
theorem algebraic : Cert.algebraic_KernelIdeal_ReferenceIdeal := by
  intro m ρ m' ρ' hpre hagree
  refine ⟨fun c => Cert.KernelIdeal.Gen.W6 m ρ c (Proc.devRef .tc Cert.KernelIdeal.main_v29),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  obtain ⟨hx, ht, hw, hb⟩ := Cert.PreV.facts _ _ _ _ (hpre c)
  funext i
  rw [eq_ix2 i]
  refine (Cert.ReferenceIdeal.RefV.out _ _ _ _ (i 0) (i 1)).trans ?_
  refine Eq.trans ?_ (Cert.KernelIdeal.Bridge.result_apply m ρ c (i 0) (i 1)).symm
  exact (Cert.Spec.outK_eq_outR _ _ _ _ hx hw hb ht (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
